-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg7 : FVec F S128 .f32) (main_arg8 : FVec F S128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S256x128 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x128 .f32) (main_arg1 : FVec F S16384x16384 .f32) (main_arg2 : FVec F S128x128 .f32) (main_arg3 : FVec F S128 .f32) (main_arg4 : FVec F S128x128 .f32) (main_arg5 : FVec F S128 .f32) (main_arg6 : FVec F S256x128 .f32) (main_arg7 : FVec F S128 .f32) (main_arg8 : FVec F S128 .f32) (main_arg9 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S256x128 : Shape := ⟨2, ![256, 128]⟩
abbrev S512x4096 : Shape := ⟨2, ![512, 4096]⟩
abbrev S4096x128 : Shape := ⟨2, ![4096, 128]⟩
abbrev S512x128 : Shape := ⟨2, ![512, 128]⟩
abbrev S512x1 : Shape := ⟨2, ![512, 1]⟩
abbrev S512 : Shape := ⟨1, ![512]⟩
abbrev S1x128 : Shape := ⟨2, ![1, 128]⟩
abbrev S512x256 : Shape := ⟨2, ![512, 256]⟩

abbrev nBuf : Space → Nat
  | .hbm => 11
  | .vmem => 18
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S16384x128, .f32⟩
  | .local _ .vmem, ⟨0, _⟩ => ⟨S512x4096, .f32⟩
  | .local _ .vmem, ⟨1, _⟩ => ⟨S512x4096, .f32⟩
  | .local _ .vmem, ⟨2, _⟩ => ⟨S4096x128, .f32⟩
  | .local _ .vmem, ⟨3, _⟩ => ⟨S4096x128, .f32⟩
  | .local _ .vmem, ⟨4, _⟩ => ⟨S512x128, .f32⟩
  | .local _ .vmem, ⟨5, _⟩ => ⟨S512x128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S256x128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  broadcasts_S512x1_S512x128 : S512x1.Broadcasts S512x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  concatenates_S512x128_S512x128_S512x256_d1 : Shape.Concatenates [S512x128, S512x128] S512x256 1
  inb_S256x128_S256x128_0_0 : ∀ a, (![0, 0] : Fin 2 → Nat) a + S256x128.size a ≤ S256x128.size a
  h_S256x128 : 0 < S256x128.numel
  reduces_S512x128_S512 : S512x128.Reduces [1] S512
  dot_S512x4096_S4096x128_S512x128_1_0_0_1_n_n_wf : DotDims.WF S512x4096 S4096x128 S512x128 [1] [0] [0] [1] [] []
  dot_S512x128_S128x128_S512x128_1_0_0_1_n_n_wf : DotDims.WF S512x128 S128x128 S512x128 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x16384.size a
  hwx0_0 : ∀ i : grid0.Coords, EltTy.bits .f32 = 32 ∨ (Rect.block (s := S16384x16384) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S16384x128.size a
  hwx0_1 : ∀ i : grid0.Coords, EltTy.bits .f32 = 32 ∨ (Rect.block (s := S16384x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S16384x128.size a
  hwx0_2 : ∀ i : grid0.Coords, EltTy.bits .f32 = 32 ∨ (Rect.block (s := S16384x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x128.size a ≤ S16384x128.size a
  hwx0_11 : ∀ i : grid0.Coords, EltTy.bits .f32 = 32 ∨ (Rect.block (s := S16384x128) S512x128.size (cc0_transform_11 i) (hinb0_11 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S512x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | ⟨_ + 12, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S_ : Shape := ⟨0, ![]⟩
abbrev S16384 : Shape := ⟨1, ![16384]⟩
abbrev S16384x1 : Shape := ⟨2, ![16384, 1]⟩
abbrev S16384x256 : Shape := ⟨2, ![16384, 256]⟩

abbrev nBuf : Space → Nat
  | .hbm => 80
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S16384x128, .f32⟩
  | .hbm, ⟨11, _⟩ => ⟨S1x128, .f32⟩
  | .hbm, ⟨12, _⟩ => ⟨S16384x128, .f32⟩
  | .hbm, ⟨13, _⟩ => ⟨S16384x128, .f32⟩
  | .hbm, ⟨14, _⟩ => ⟨S16384x128, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x128, .f32⟩
  | .hbm, ⟨23, _⟩ => ⟨S16384x128, .f32⟩
  | .hbm, ⟨24, _⟩ => ⟨S16384x128, .f32⟩
  | .hbm, ⟨25, _⟩ => ⟨S1x128, .f32⟩
  | .hbm, ⟨26, _⟩ => ⟨S16384x128, .f32⟩
  | .hbm, ⟨27, _⟩ => ⟨S16384x128, .f32⟩
  | .hbm, ⟨28, _⟩ => ⟨S16384x256, .f32⟩
  | .hbm, ⟨29, _⟩ => ⟨S16384x128, .f32⟩
  | .hbm, ⟨30, _⟩ => ⟨S1x128, .f32⟩
  | .hbm, ⟨31, _⟩ => ⟨S16384x128, .f32⟩
  | .hbm, ⟨32, _⟩ => ⟨S16384x128, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S_, .i32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x128, .f32⟩
  | .hbm, ⟨47, _⟩ => ⟨S16384x128, .f32⟩
  | .hbm, ⟨48, _⟩ => ⟨S16384x128, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S_, .i1⟩
  | .hbm, ⟨59, _⟩ => ⟨S_, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x128, .f32⟩
  | .hbm, ⟨64, _⟩ => ⟨S16384x128, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x1, .f32⟩
  | .hbm, ⟨69, _⟩ => ⟨S16384x128, .f32⟩
  | .hbm, ⟨70, _⟩ => ⟨S16384x128, .f32⟩
  | .hbm, ⟨71, _⟩ => ⟨S1x128, .f32⟩
  | .hbm, ⟨72, _⟩ => ⟨S16384x128, .f32⟩
  | .hbm, ⟨73, _⟩ => ⟨S16384x128, .f32⟩
  | .hbm, ⟨74, _⟩ => ⟨S1x128, .f32⟩
  | .hbm, ⟨75, _⟩ => ⟨S16384x128, .f32⟩
  | .hbm, ⟨76, _⟩ => ⟨S16384x128, .f32⟩
  | .hbm, ⟨77, _⟩ => ⟨S_, .f32⟩
  | .hbm, ⟨78, _⟩ => ⟨S16384x128, .f32⟩
  | .hbm, ⟨79, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_c : Ref sig .tc := ⟨.hbm, 39, rfl⟩
abbrev main_call1_cst : Ref sig .tc := ⟨.hbm, 40, rfl⟩
abbrev main_call1_v0 : Ref sig .tc := ⟨.hbm, 41, rfl⟩
abbrev main_call1_v1 : Ref sig .tc := ⟨.hbm, 42, rfl⟩
abbrev main_call1_cst_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_cst_1 : Ref sig .tc := ⟨.hbm, 50, rfl⟩
abbrev main_call1_v8 : Ref sig .tc := ⟨.hbm, 51, rfl⟩
abbrev main_call1_cst_2 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_v12 : Ref sig .tc := ⟨.hbm, 56, rfl⟩
abbrev main_call1_cst_3 : Ref sig .tc := ⟨.hbm, 57, rfl⟩
abbrev main_call1_v13 : Ref sig .tc := ⟨.hbm, 58, rfl⟩
abbrev main_call1_cst_4 : Ref sig .tc := ⟨.hbm, 59, rfl⟩
abbrev main_call1_call0_v0 : Ref sig .tc := ⟨.hbm, 60, rfl⟩
abbrev main_call1_call0_v1 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_3 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_call2_cst : Ref sig .tc := ⟨.hbm, 77, rfl⟩
abbrev main_call2_v0 : Ref sig .tc := ⟨.hbm, 78, rfl⟩
abbrev main_v37 : Ref sig .tc := ⟨.hbm, 79, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  reducesTo_S16384x16384_S16384_d1 : S16384x16384.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  concatenates_S16384x128_S16384x128_S16384x256_d1 : Shape.Concatenates [S16384x128, S16384x128] S16384x256 1
  reducesTo_S16384x128_S16384_d1 : S16384x128.ReducesTo [1] S16384
  bcast_S_S16384x128 : S_.BroadcastsInDim S16384x128 (![] : Fin 0 → Fin S16384x128.rank)
  dot_S16384x128_S128x128_S16384x128_1_0_0_1_n_n_wf : DotDims.WF S16384x128 S128x128 S16384x128 [1] [0] [0] [1] [] []
  dot_S16384x16384_S16384x128_S16384x128_1_0_0_1_n_n_wf : DotDims.WF S16384x16384 S16384x128 S16384x128 [1] [0] [0] [1] [] []
  dot_S16384x256_S256x128_S16384x128_1_0_0_1_n_n_wf : DotDims.WF S16384x256 S256x128 S16384x128 [1] [0] [0] [1] [] []

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf

class Facts : Prop extends Facts₀ where

variable [Facts]
-- ==== Proof.KernelIdealRuns.lean ====
/-
  What the three cases of the kernel's body share. The grid has 32 row blocks times 4 column blocks; point t is row
  block t / 4 and column block t % 4. The body resets its two accumulators where the column block is 0, adds this
  block's row sums and product at every point, and where the column block is 3 computes the layer's rows and stores
  them. So a point is in one of three cases: reset and add (t % 4 = 0), add only (t % 4 = 1, 2), add and finish
  (t % 4 = 3). The output window is idle, and not written back, at the points of the first two cases.
-/
import proofs.«153857_j5291399708711_1_alg».proof.Proof.Gen.KernelIdeal.Launch
import proofs.«153857_j5291399708711_1_alg».proof.Proof.Gen.KernelIdeal.Skeleton
import proofs.«153857_j5291399708711_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them: @main is the one call, so they are the launch memory's. -/

abbrev V (c : Dev nD) (b : Ref sig .tc) : Buf (Elt F) ((c : Thread nD τ).loc b) := m ((c : Thread nD τ).loc b)

/-- Window w's block at point t, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## An input window's staging buffer holds its block at every point, fetched there or not -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, decided over the grid -/

/-- "The column block is the first": the reset's condition. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "The column block is the last": the finishing step's condition. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
/-- Away from the last column block nothing is stored into the output window and it is not written back. -/
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
/-- At the last column block the output window is live. -/
theorem liveAt0_11 : ∀ t : Fin cfg0.N, cond0_1 (grid0.coords t) → cfg0.idle 11 (grid0.coords t) = false := by decide +kernel

/-! ## The staging and scratch memrefs -/
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x128 .f32 := win0_11.stage (cfg0.slots t 11)
abbrev hs0_11 (t : Fin cfg0.N) : (ms0_11 t).IsWhole := hstage0_11 ((cfg0.slots t 11).cast nbuf0_11)
/-- The neighbour-sum accumulator and the degree accumulator: whole scoped buffers of the kernel's own. -/
abbrev scM0_0 : Memref sig .tc .vmem S512x128 .f32 := Memref.whole cc0_scratch0
abbrev scM0_1 : Memref sig .tc .vmem S512x1 .f32 := Memref.whole cc0_scratch1
abbrev VS0_0 : View sig .tc .vmem S512x128 .f32 := scM0_0.view
abbrev VS0_1 : View sig .tc .vmem S512x1 .f32 := scM0_1.view
/-- One staging buffer of the output window, through which its contents are stated. -/
abbrev VO0_11 : View sig .tc .vmem S512x128 .f32 := (Memref.whole cc0_stg11_0 : Memref sig .tc .vmem S512x128 .f32).view

/-- The core's scoped buffers besides the staging buffers are the two accumulators, each owned at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

end Cert.KernelIdeal.Fr

end
-- ==== Proof.KernelIdealRunA.lean ====
/-
  The body at a point whose column block is the first: both accumulators are stored zero, then the block's row sums
  and its product with the 4096 rows of x are added into them. Nothing else is loaded and the output block is not
  touched. The run finds what each accumulator ends with as the list of the pieces stored into it.
-/
import proofs.«153857_j5291399708711_1_alg».proof.Proof.KernelIdealRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1 .f32) (harg15 : arg15.IsWhole) (hc0 : cond0_0 i) (hc1 : ¬cond0_1 i)
    (x0 : Vec F S512x4096 .f32) (x1 : Vec F S4096x128 .f32) :
    Σ' (LS0 : List (View.Piece (Elt F) S512x128 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; iexact HS0
    iexists _; iexact HS1

end Cert.KernelIdeal.Fr

end
-- ==== Proof.KernelIdealRunB.lean ====
/-
  The body at a point whose column block is the second or third: the block's row sums and its product with the 4096
  rows of x are added into the accumulators, which hold what the point before left. Nothing else is loaded and the
  output block is not touched.
-/
import proofs.«153857_j5291399708711_1_alg».proof.Proof.KernelIdealRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1 .f32) (harg15 : arg15.IsWhole) (hc0 : ¬cond0_0 i) (hc1 : ¬cond0_1 i)
    (x0 : Vec F S512x4096 .f32) (x1 : Vec F S4096x128 .f32) (xs0 : Vec F S512x128 .f32) (xs1 : Vec F S512x1 .f32) :
    Σ' (LS0 : List (View.Piece (Elt F) S512x128 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1
            ∗ owns (c : Thread nD τ) arg14 fullShare xs0 ∗ owns (c : Thread nD τ) arg15 fullShare xs1
            ∗ (iprop(owns (c : Thread nD τ) arg2 fullShare x0 ∗ owns (c : Thread nD τ) arg3 fullShare x1
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%fs0, %hfs0, HS0⟩, ⟨%fs1, %hfs1, HS1⟩, Hk⟩
    obtain rfl := harg2.eq_unread hf0; obtain rfl := harg3.eq_unread hf1
    obtain rfl := harg14.eq_unread hfs0; obtain rfl := harg15.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; iexact HS0
    iexists _; iexact HS1

end Cert.KernelIdeal.Fr

end
-- ==== Proof.KernelIdealRunC.lean ====
/-
  The body at a point whose column block is the last: after the block's row sums and product are added, the
  accumulators hold the row block's degrees and neighbour sums; the body loads the row block of x, the three weight
  matrices, the three bias rows and the scale and shift rows, computes the layer's rows and stores them whole into the
  output block.
-/
import proofs.«153857_j5291399708711_1_alg».proof.Proof.KernelIdealRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def kernelRun0_C (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1 .f32) (harg15 : arg15.IsWhole) (hc0 : ¬cond0_0 i) (hc1 : cond0_1 i)
    (x0 : Vec F S512x4096 .f32) (x1 : Vec F S4096x128 .f32) (x2 : Vec F S512x128 .f32) (x3 : Vec F S128x128 .f32) (x4 : Vec F S128 .f32) (x5 : Vec F S128x128 .f32) (x6 : Vec F S128 .f32) (x7 : Vec F S256x128 .f32) (x8 : Vec F S128 .f32) (x9 : Vec F S128 .f32) (x10 : Vec F S128 .f32) (xs0 : Vec F S512x128 .f32) (xs1 : Vec F S512x1 .f32) :
    Σ' (L11 : List (View.Piece (Elt F) S512x128 .f32)) (LS0 : List (View.Piece (Elt F) S512x128 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
            ∗ (∃ d, owns (c : Thread nD τ) arg13 fullShare d)
            ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
                ∗ (∃ f, arg13.view.loc (c : Thread nD τ) ↦[arg13.view.set]{fullShare} arg13.view.writes (Elt F) f L11)
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    obtain rfl := harg14.eq_unread hfs0; obtain rfl := harg15.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; iexact H11
    isplitl [HS0]
    · iexists _; iexact HS0
    iexists _; iexact HS1

end Cert.KernelIdeal.Fr

end
-- ==== Proof.KernelIdealData.lean ====
/-
  What the kernel's two accumulators and its output block hold after each point, and the proof data of the pipeline.
  Each case's run found, for every buffer it stores into, the list of the pieces stored; what the buffer then holds is
  those pieces read back, and they cover the buffer, so nothing of its earlier contents shows. Point by point: a point
  whose column block is the first starts the accumulators anew; any other adds to what the point before left; a point
  whose column block is the last also fills the output block. The array of x is read through two windows (its 4096-row
  blocks and its 512-row blocks): each holds it at half the full share.
-/
import proofs.«153857_j5291399708711_1_alg».proof.Proof.KernelIdealRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable [∀ e, Nonempty (Elt F e)]

/-! ## What each case leaves -/

/-- The pieces a case stored into an accumulator tile it. -/
theorem scoverA_0 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1 .f32) (harg15 : arg15.IsWhole) (hc0 : cond0_0 i) (hc1 : ¬cond0_1 i)
    (x0 : Vec F S512x4096 .f32) (x1 : Vec F S4096x128 .f32) (y : S512x128.Idx) :
    ∃ pc ∈ (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1).1, y ∈ pc.1.set :=
  View.cover_of_tiledL (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1).1 S512x128.size (by sl_kernel_rfl) y
theorem scoverA_1 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1 .f32) (harg15 : arg15.IsWhole) (hc0 : cond0_0 i) (hc1 : ¬cond0_1 i)
    (x0 : Vec F S512x4096 .f32) (x1 : Vec F S4096x128 .f32) (y : S512x1.Idx) :
    ∃ pc ∈ (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1).2.1, y ∈ pc.1.set :=
  View.cover_of_tiledL (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1).2.1 S512x1.size (by sl_kernel_rfl) y
/-- The neighbour sums after a point of the first case. -/
def soutA_0 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1 .f32) (harg15 : arg15.IsWhole) (hc0 : cond0_0 i) (hc1 : ¬cond0_1 i)
    (x0 : Vec F S512x4096 .f32) (x1 : Vec F S4096x128 .f32) : Vec F S512x128 .f32 :=
  VS0_0.read (Elt F) (VS0_0.writes (Elt F) VS0_0.junk (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1).1)
/-- The degrees after a point of the first case. -/
def soutA_1 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1 .f32) (harg15 : arg15.IsWhole) (hc0 : cond0_0 i) (hc1 : ¬cond0_1 i)
    (x0 : Vec F S512x4096 .f32) (x1 : Vec F S4096x128 .f32) : Vec F S512x1 .f32 :=
  VS0_1.read (Elt F) (VS0_1.writes (Elt F) VS0_1.junk (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1).2.1)

theorem scoverB_0 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1 .f32) (harg15 : arg15.IsWhole) (hc0 : ¬cond0_0 i) (hc1 : ¬cond0_1 i)
    (x0 : Vec F S512x4096 .f32) (x1 : Vec F S4096x128 .f32) (xs0 : Vec F S512x128 .f32) (xs1 : Vec F S512x1 .f32) (y : S512x128.Idx) :
    ∃ pc ∈ (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1).1, y ∈ pc.1.set :=
  View.cover_of_tiledL (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1).1 S512x128.size (by sl_kernel_rfl) y
theorem scoverB_1 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1 .f32) (harg15 : arg15.IsWhole) (hc0 : ¬cond0_0 i) (hc1 : ¬cond0_1 i)
    (x0 : Vec F S512x4096 .f32) (x1 : Vec F S4096x128 .f32) (xs0 : Vec F S512x128 .f32) (xs1 : Vec F S512x1 .f32) (y : S512x1.Idx) :
    ∃ pc ∈ (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1).2.1, y ∈ pc.1.set :=
  View.cover_of_tiledL (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1).2.1 S512x1.size (by sl_kernel_rfl) y
def soutB_0 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1 .f32) (harg15 : arg15.IsWhole) (hc0 : ¬cond0_0 i) (hc1 : ¬cond0_1 i)
    (x0 : Vec F S512x4096 .f32) (x1 : Vec F S4096x128 .f32) (xs0 : Vec F S512x128 .f32) (xs1 : Vec F S512x1 .f32) : Vec F S512x128 .f32 :=
  VS0_0.read (Elt F) (VS0_0.writes (Elt F) VS0_0.junk (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1).1)
def soutB_1 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1 .f32) (harg15 : arg15.IsWhole) (hc0 : ¬cond0_0 i) (hc1 : ¬cond0_1 i)
    (x0 : Vec F S512x4096 .f32) (x1 : Vec F S4096x128 .f32) (xs0 : Vec F S512x128 .f32) (xs1 : Vec F S512x1 .f32) : Vec F S512x1 .f32 :=
  VS0_1.read (Elt F) (VS0_1.writes (Elt F) VS0_1.junk (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1).2.1)

theorem coverC_11 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1 .f32) (harg15 : arg15.IsWhole) (hc0 : ¬cond0_0 i) (hc1 : cond0_1 i)
    (x0 : Vec F S512x4096 .f32) (x1 : Vec F S4096x128 .f32) (x2 : Vec F S512x128 .f32) (x3 : Vec F S128x128 .f32) (x4 : Vec F S128 .f32) (x5 : Vec F S128x128 .f32) (x6 : Vec F S128 .f32) (x7 : Vec F S256x128 .f32) (x8 : Vec F S128 .f32) (x9 : Vec F S128 .f32) (x10 : Vec F S128 .f32) (xs0 : Vec F S512x128 .f32) (xs1 : Vec F S512x1 .f32) (y : S512x128.Idx) :
    ∃ pc ∈ (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1, y ∈ pc.1.set :=
  View.cover_of_tiledL (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1 S512x128.size (by sl_kernel_rfl) y
theorem scoverC_0 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1 .f32) (harg15 : arg15.IsWhole) (hc0 : ¬cond0_0 i) (hc1 : cond0_1 i)
    (x0 : Vec F S512x4096 .f32) (x1 : Vec F S4096x128 .f32) (x2 : Vec F S512x128 .f32) (x3 : Vec F S128x128 .f32) (x4 : Vec F S128 .f32) (x5 : Vec F S128x128 .f32) (x6 : Vec F S128 .f32) (x7 : Vec F S256x128 .f32) (x8 : Vec F S128 .f32) (x9 : Vec F S128 .f32) (x10 : Vec F S128 .f32) (xs0 : Vec F S512x128 .f32) (xs1 : Vec F S512x1 .f32) (y : S512x128.Idx) :
    ∃ pc ∈ (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1, y ∈ pc.1.set :=
  View.cover_of_tiledL (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1 S512x128.size (by sl_kernel_rfl) y
theorem scoverC_1 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1 .f32) (harg15 : arg15.IsWhole) (hc0 : ¬cond0_0 i) (hc1 : cond0_1 i)
    (x0 : Vec F S512x4096 .f32) (x1 : Vec F S4096x128 .f32) (x2 : Vec F S512x128 .f32) (x3 : Vec F S128x128 .f32) (x4 : Vec F S128 .f32) (x5 : Vec F S128x128 .f32) (x6 : Vec F S128 .f32) (x7 : Vec F S256x128 .f32) (x8 : Vec F S128 .f32) (x9 : Vec F S128 .f32) (x10 : Vec F S128 .f32) (xs0 : Vec F S512x128 .f32) (xs1 : Vec F S512x1 .f32) (y : S512x1.Idx) :
    ∃ pc ∈ (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1, y ∈ pc.1.set :=
  View.cover_of_tiledL (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1 S512x1.size (by sl_kernel_rfl) y
/-- The output block after a point of the last case. -/
def outC_11 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1 .f32) (harg15 : arg15.IsWhole) (hc0 : ¬cond0_0 i) (hc1 : cond0_1 i)
    (x0 : Vec F S512x4096 .f32) (x1 : Vec F S4096x128 .f32) (x2 : Vec F S512x128 .f32) (x3 : Vec F S128x128 .f32) (x4 : Vec F S128 .f32) (x5 : Vec F S128x128 .f32) (x6 : Vec F S128 .f32) (x7 : Vec F S256x128 .f32) (x8 : Vec F S128 .f32) (x9 : Vec F S128 .f32) (x10 : Vec F S128 .f32) (xs0 : Vec F S512x128 .f32) (xs1 : Vec F S512x1 .f32) : Vec F S512x128 .f32 :=
  VO0_11.read (Elt F) (VO0_11.writes (Elt F) VO0_11.junk (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1)
def soutC_0 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1 .f32) (harg15 : arg15.IsWhole) (hc0 : ¬cond0_0 i) (hc1 : cond0_1 i)
    (x0 : Vec F S512x4096 .f32) (x1 : Vec F S4096x128 .f32) (x2 : Vec F S512x128 .f32) (x3 : Vec F S128x128 .f32) (x4 : Vec F S128 .f32) (x5 : Vec F S128x128 .f32) (x6 : Vec F S128 .f32) (x7 : Vec F S256x128 .f32) (x8 : Vec F S128 .f32) (x9 : Vec F S128 .f32) (x10 : Vec F S128 .f32) (xs0 : Vec F S512x128 .f32) (xs1 : Vec F S512x1 .f32) : Vec F S512x128 .f32 :=
  VS0_0.read (Elt F) (VS0_0.writes (Elt F) VS0_0.junk (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1)
def soutC_1 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1 .f32) (harg15 : arg15.IsWhole) (hc0 : ¬cond0_0 i) (hc1 : cond0_1 i)
    (x0 : Vec F S512x4096 .f32) (x1 : Vec F S4096x128 .f32) (x2 : Vec F S512x128 .f32) (x3 : Vec F S128x128 .f32) (x4 : Vec F S128 .f32) (x5 : Vec F S128x128 .f32) (x6 : Vec F S128 .f32) (x7 : Vec F S256x128 .f32) (x8 : Vec F S128 .f32) (x9 : Vec F S128 .f32) (x10 : Vec F S128 .f32) (xs0 : Vec F S512x128 .f32) (xs1 : Vec F S512x1 .f32) : Vec F S512x1 .f32 :=
  VS0_1.read (Elt F) (VS0_1.writes (Elt F) VS0_1.junk (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1)

/-- The output window's block where nothing is stored into it: contents nothing consults. -/
def idleOut : Vec F S512x128 .f32 := VO0_11.read (Elt F) VO0_11.junk

/-! ## Point by point: (output block, neighbour sums, degrees) after the body at point t -/

theorem notLast_of_first (t : Fin cfg0.N) (h0 : t.val % 4 = 0) : ¬cond0_1 (grid0.coords t) :=
  fun h => by have := (hcond0_1 t).mp h; omega

def atA (c : Dev nD) (t : Fin cfg0.N) (h0 : t.val % 4 = 0) : Vec F S512x128 .f32 × Vec F S512x128 .f32 × Vec F S512x1 .f32 :=
  (idleOut,
   soutA_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (notLast_of_first t h0) (iblk m c 0 t) (iblk m c 1 t),
   soutA_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (notLast_of_first t h0) (iblk m c 0 t) (iblk m c 1 t))

def atB (c : Dev nD) (t : Fin cfg0.N) (h0 : ¬t.val % 4 = 0) (h1 : ¬t.val % 4 = 3) (xs0 : Vec F S512x128 .f32) (xs1 : Vec F S512x1 .f32) :
    Vec F S512x128 .f32 × Vec F S512x128 .f32 × Vec F S512x1 .f32 :=
  (idleOut,
   soutB_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (iblk m c 0 t) (iblk m c 1 t) xs0 xs1,
   soutB_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (iblk m c 0 t) (iblk m c 1 t) xs0 xs1)

def atC (c : Dev nD) (t : Fin cfg0.N) (h0 : ¬t.val % 4 = 0) (h1 : t.val % 4 = 3) (xs0 : Vec F S512x128 .f32) (xs1 : Vec F S512x1 .f32) :
    Vec F S512x128 .f32 × Vec F S512x128 .f32 × Vec F S512x1 .f32 :=
  (outC_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1,
   soutC_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1,
   soutC_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1)

/-- The accumulation over the points. -/
def outsAt0 (c : Dev nD) : (n : ℕ) → n < cfg0.N → Vec F S512x128 .f32 × Vec F S512x128 .f32 × Vec F S512x1 .f32
  | 0, hn => atA m c ⟨0, hn⟩ (Nat.zero_mod 4)
  | n + 1, hn =>
    if h0 : (n + 1) % 4 = 0 then atA m c ⟨n + 1, hn⟩ h0
    else if h1 : (n + 1) % 4 = 3 then
      atC m c ⟨n + 1, hn⟩ h0 h1 (outsAt0 c n (Nat.lt_of_succ_lt hn)).2.1 (outsAt0 c n (Nat.lt_of_succ_lt hn)).2.2
    else
      atB m c ⟨n + 1, hn⟩ h0 h1 (outsAt0 c n (Nat.lt_of_succ_lt hn)).2.1 (outsAt0 c n (Nat.lt_of_succ_lt hn)).2.2

theorem outsAt0_A (c : Dev nD) (t : Fin cfg0.N) (h0 : t.val % 4 = 0) : outsAt0 m c t.val t.isLt = atA m c t h0 := by
  obtain ⟨n, hn⟩ := t
  cases n with
  | zero => rfl
  | succ n => exact dif_pos h0

theorem outsAt0_B (c : Dev nD) (t : Fin cfg0.N) (h0 : ¬t.val % 4 = 0) (h1 : ¬t.val % 4 = 3) :
    outsAt0 m c t.val t.isLt = atB m c t h0 h1 (outsAt0 m c (t.val - 1) (Nat.lt_of_le_of_lt (Nat.sub_le _ _) t.isLt)).2.1
      (outsAt0 m c (t.val - 1) (Nat.lt_of_le_of_lt (Nat.sub_le _ _) t.isLt)).2.2 := by
  obtain ⟨n, hn⟩ := t
  cases n with
  | zero => exact absurd (Nat.zero_mod 4) h0
  | succ n => exact (dif_neg h0).trans ((dif_neg h1).trans rfl)

theorem outsAt0_C (c : Dev nD) (t : Fin cfg0.N) (h0 : ¬t.val % 4 = 0) (h1 : t.val % 4 = 3) :
    outsAt0 m c t.val t.isLt = atC m c t h0 h1 (outsAt0 m c (t.val - 1) (Nat.lt_of_le_of_lt (Nat.sub_le _ _) t.isLt)).2.1
      (outsAt0 m c (t.val - 1) (Nat.lt_of_le_of_lt (Nat.sub_le _ _) t.isLt)).2.2 := by
  obtain ⟨n, hn⟩ := t
  cases n with
  | zero => exact absurd (Nat.zero_mod 4) h0
  | succ n => exact (dif_neg h0).trans ((dif_pos h1).trans rfl)

/-! ## The invariant: the two accumulators, at anything before the first point, then at what the point before left -/

def PhiS (c : Dev nD) : (n : ℕ) → n ≤ cfg0.N → sProp 𝕄
  | 0, _ => iprop((∃ d, owns (c : Thread nD τ) scM0_0 fullShare d) ∗ (∃ d, owns (c : Thread nD τ) scM0_1 fullShare d))
  | n + 1, hn => iprop(owns (c : Thread nD τ) scM0_0 fullShare (outsAt0 m c n hn).2.1 ∗ owns (c : Thread nD τ) scM0_1 fullShare (outsAt0 m c n hn).2.2)

theorem PhiS_zero (c : Dev nD) (n : ℕ) (h : n ≤ cfg0.N) (hz : n = 0) :
    PhiS m c n h = iprop((∃ d, owns (c : Thread nD τ) scM0_0 fullShare d) ∗ (∃ d, owns (c : Thread nD τ) scM0_1 fullShare d)) := by
  subst hz; rfl

theorem PhiS_succ (c : Dev nD) (n : ℕ) (hn : n < cfg0.N) :
    PhiS m c (n + 1) hn = iprop(owns (c : Thread nD τ) scM0_0 fullShare (outsAt0 m c n hn).2.1 ∗ owns (c : Thread nD τ) scM0_1 fullShare (outsAt0 m c n hn).2.2) := rfl

theorem PhiS_pos (c : Dev nD) (n : ℕ) (h : n ≤ cfg0.N) (hz : n ≠ 0) :
    PhiS m c n h = iprop(owns (c : Thread nD τ) scM0_0 fullShare (outsAt0 m c (n - 1) (by omega)).2.1
      ∗ owns (c : Thread nD τ) scM0_1 fullShare (outsAt0 m c (n - 1) (by omega)).2.2) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- An input window is never idle: after the body its buffer holds its block. -/
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]
theorem leaves0_5 (c : Dev nD) (t : Fin cfg0.N) :
    (dats m 0 c).leavesExact 5 t = owns (c : Thread nD τ) (ms0_5 t) fullShare (iblk m c 5 t) := by
  unfold Dat.leavesExact; rw [liveAt0_5 t, after0_5]
theorem leaves0_6 (c : Dev nD) (t : Fin cfg0.N) :
    (dats m 0 c).leavesExact 6 t = owns (c : Thread nD τ) (ms0_6 t) fullShare (iblk m c 6 t) := by
  unfold Dat.leavesExact; rw [liveAt0_6 t, after0_6]
theorem leaves0_7 (c : Dev nD) (t : Fin cfg0.N) :
    (dats m 0 c).leavesExact 7 t = owns (c : Thread nD τ) (ms0_7 t) fullShare (iblk m c 7 t) := by
  unfold Dat.leavesExact; rw [liveAt0_7 t, after0_7]
theorem leaves0_8 (c : Dev nD) (t : Fin cfg0.N) :
    (dats m 0 c).leavesExact 8 t = owns (c : Thread nD τ) (ms0_8 t) fullShare (iblk m c 8 t) := by
  unfold Dat.leavesExact; rw [liveAt0_8 t, after0_8]
theorem leaves0_9 (c : Dev nD) (t : Fin cfg0.N) :
    (dats m 0 c).leavesExact 9 t = owns (c : Thread nD τ) (ms0_9 t) fullShare (iblk m c 9 t) := by
  unfold Dat.leavesExact; rw [liveAt0_9 t, after0_9]
theorem leaves0_10 (c : Dev nD) (t : Fin cfg0.N) :
    (dats m 0 c).leavesExact 10 t = owns (c : Thread nD τ) (ms0_10 t) fullShare (iblk m c 10 t) := by
  unfold Dat.leavesExact; rw [liveAt0_10 t, after0_10]

end Cert.KernelIdeal.Fr

end
-- ==== Proof.KernelIdealBody.lean ====
/-
  The body obligation. At point t the pipeline hands the body every window's current staging buffer: an input's holds
  its block; the output's holds anything. The invariant hands it the two accumulators, at anything before the first
  point and at what the point before left afterwards. By the point's column block one of the three runs applies; it
  gives the accumulators back at this point's contents, every input as it was, and the output block filled at the
  last column block and untouched otherwise. The core owes nothing throughout.
-/
import proofs.«153857_j5291399708711_1_alg».proof.Proof.KernelIdealData

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable [∀ e, Nonempty (Elt F e)]

/-- What the body is called with at point t, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9, leaves0_10]
  by_cases h0 : t.val % 4 = 0
  · -- The column block is the first: reset and add. The output block is idle and is not written back.
    have hc1 := notLast_of_first t h0
    rw [Dat.leavesExact_idle (dats m 0 c) 11 t (idleAt0_11 t hc1) (noFlush0_11 t hc1)]
    rw [outsAt0_A m c t h0]; unfold atA; dsimp only; unfold soutA_0 soutA_1
    by_cases hz : t.val = 0
    · -- The first point of all: the accumulators come at anything.
      rw [PhiS_castSucc m c t, PhiS_zero m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ _ _ ((hcond0_0 t).mpr h0) hc1 (iblk m c 0 t) (iblk m c 1 t)).2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1]
      · isplitl [HS0]
        · unfold owns; iexists _; isplitr
          swap; · iexact HS0
          ipureintro; exact View.read_writes_of_cover _ _ _ _ _ (scoverA_0 c _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scoverA_1 c _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
    · -- A later row block's first point: the accumulators come at what the point before left, which the reset forgets.
      rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ _ _ ((hcond0_0 t).mpr h0) hc1 (iblk m c 0 t) (iblk m c 1 t)).2.2 Set.univ _)
      isplitl [H0]; · iexact H0
      isplitl [H1]; · iexact H1
      isplitl [HS0]; · iexists _; iexact HS0
      isplitl [HS1]; · iexists _; iexact HS1
      iintro ⟨H0, H1, ⟨%es0, HS0⟩, ⟨%es1, HS1⟩⟩
      isplitl [HS0 HS1]
      · isplitl [HS0]
        · unfold owns; iexists _; isplitr
          swap; · iexact HS0
          ipureintro; exact View.read_writes_of_cover _ _ _ _ _ (scoverA_0 c _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scoverA_1 c _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
  · have hz : t.val ≠ 0 := fun h => h0 (by rw [h])
    by_cases h1 : t.val % 4 = 3
    · -- The column block is the last: add, then compute the layer's rows and store them. Every input is read.
      rw [show (dats m 0 c).leavesExact 11 t = owns (c : Thread nD τ) (ms0_11 t) fullShare ((dats m 0 c).after 11 t) from by
        unfold Dat.leavesExact; rw [liveAt0_11 t ((hcond0_1 t).mpr h1)], after0_11]
      rw [outsAt0_C m c t h0 h1]; unfold atC; dsimp only; unfold outC_11 soutC_0 soutC_1
      rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_C c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      iintro ⟨H0, H1, H2, H3, H4, H5, H6, H7, H8, H9, H10, ⟨%e11, H11⟩, ⟨%es0, HS0⟩, ⟨%es1, HS1⟩⟩
      isplitl [HS0 HS1]
      · isplitl [HS0]
        · unfold owns; iexists _; isplitr
          swap; · iexact HS0
          ipureintro; exact View.read_writes_of_cover _ _ _ _ _ (scoverC_0 c _ _ _ _ _ _ _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scoverC_1 c _ _ _ _ _ _ _ _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (coverC_11 c _ _ _ _ _ _ _ _ _ _ _ _ _ _ _ _ _ _ _ _ _ _ _ _ _ _ _ _ _ _ _ _ _ _ _ _ _ _ _ _ _ _ _ _)
    · -- A middle column block: add only. The output block is idle and is not written back.
      have hc1 : ¬cond0_1 (grid0.coords t) := fun h => h1 ((hcond0_1 t).mp h)
      rw [Dat.leavesExact_idle (dats m 0 c) 11 t (idleAt0_11 t hc1) (noFlush0_11 t hc1)]
      rw [outsAt0_B m c t h0 h1]; unfold atB; dsimp only; unfold soutB_0 soutB_1
      rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2).2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1]
      · isplitl [HS0]
        · unfold owns; iexists _; isplitr
          swap; · iexact HS0
          ipureintro; exact View.read_writes_of_cover _ _ _ _ _ (scoverB_0 c _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scoverB_1 c _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KernelIdealLaunch.lean ====
/-
  The launch. @main is the one pallas_call, so the region starts from the launch memory. Its twelve windows stand on
  eleven distinct arrays: the array of x is read through two windows, which hold it at the two halves of the full
  share; every other array is held whole by its one window. The two accumulators are the core's only other scoped
  buffers: they enter the invariant at anything and leave it forgotten. Given the body obligation, every weakly fair
  execution terminates with every window's array at what the proof data computes.
-/
import proofs.«153857_j5291399708711_1_alg».proof.Proof.KernelIdealData
import Idealize.ShloMosaic.Lib.Pipeline.Launch
import Idealize.ShloMosaic.Lib.Pipeline.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable [∀ e, Nonempty (Elt F e)]

open Idealize.ShloMosaic.Pipeline

/-- The distinct arrays behind the twelve windows. -/
theorem arrRefs_eq : Finset.univ.image (Pipeline.arrRef spec0)
    = [main_arg1, main_arg0, main_arg2, main_arg3, main_arg4, main_arg5, main_arg6, main_arg7, main_arg8, main_arg9, main_v0].toFinset := by
  decide

/-- Each window's holding of its array at entry, as a plain points-to of the buffer behind it: x's two windows hold
    a half each, every other window the whole. -/
theorem arr_holds_0 (c : Dev nD) :
    (((cfg0.win 0).arr.view.loc (c.tc : Thread nD τ)) ↦[(cfg0.win 0).arr.view.set]{(dats m 0 c).share 0} (dats m 0 c).arrAt 0 0 : sProp 𝕄)
      = (((c.tc : Thread nD τ).loc (Pipeline.arrRef spec0 0)) ↦{fullShare} V m c (Pipeline.arrRef spec0 0)) := by
  rw [(arr_whole0 0).set_eq_univ]; rfl
theorem arr_holds_1 (c : Dev nD) :
    (((cfg0.win 1).arr.view.loc (c.tc : Thread nD τ)) ↦[(cfg0.win 1).arr.view.set]{(dats m 0 c).share 1} (dats m 0 c).arrAt 1 0 : sProp 𝕄)
      = (((c.tc : Thread nD τ).loc (Pipeline.arrRef spec0 1)) ↦{fullShare.left} V m c (Pipeline.arrRef spec0 1)) := by
  rw [(arr_whole0 1).set_eq_univ]; rfl
theorem arr_holds_2 (c : Dev nD) :
    (((cfg0.win 2).arr.view.loc (c.tc : Thread nD τ)) ↦[(cfg0.win 2).arr.view.set]{(dats m 0 c).share 2} (dats m 0 c).arrAt 2 0 : sProp 𝕄)
      = (((c.tc : Thread nD τ).loc (Pipeline.arrRef spec0 2)) ↦{fullShare.right} V m c (Pipeline.arrRef spec0 2)) := by
  rw [(arr_whole0 2).set_eq_univ]; rfl
theorem arr_holds_3 (c : Dev nD) :
    (((cfg0.win 3).arr.view.loc (c.tc : Thread nD τ)) ↦[(cfg0.win 3).arr.view.set]{(dats m 0 c).share 3} (dats m 0 c).arrAt 3 0 : sProp 𝕄)
      = (((c.tc : Thread nD τ).loc (Pipeline.arrRef spec0 3)) ↦{fullShare} V m c (Pipeline.arrRef spec0 3)) := by
  rw [(arr_whole0 3).set_eq_univ]; rfl
theorem arr_holds_4 (c : Dev nD) :
    (((cfg0.win 4).arr.view.loc (c.tc : Thread nD τ)) ↦[(cfg0.win 4).arr.view.set]{(dats m 0 c).share 4} (dats m 0 c).arrAt 4 0 : sProp 𝕄)
      = (((c.tc : Thread nD τ).loc (Pipeline.arrRef spec0 4)) ↦{fullShare} V m c (Pipeline.arrRef spec0 4)) := by
  rw [(arr_whole0 4).set_eq_univ]; rfl
theorem arr_holds_5 (c : Dev nD) :
    (((cfg0.win 5).arr.view.loc (c.tc : Thread nD τ)) ↦[(cfg0.win 5).arr.view.set]{(dats m 0 c).share 5} (dats m 0 c).arrAt 5 0 : sProp 𝕄)
      = (((c.tc : Thread nD τ).loc (Pipeline.arrRef spec0 5)) ↦{fullShare} V m c (Pipeline.arrRef spec0 5)) := by
  rw [(arr_whole0 5).set_eq_univ]; rfl
theorem arr_holds_6 (c : Dev nD) :
    (((cfg0.win 6).arr.view.loc (c.tc : Thread nD τ)) ↦[(cfg0.win 6).arr.view.set]{(dats m 0 c).share 6} (dats m 0 c).arrAt 6 0 : sProp 𝕄)
      = (((c.tc : Thread nD τ).loc (Pipeline.arrRef spec0 6)) ↦{fullShare} V m c (Pipeline.arrRef spec0 6)) := by
  rw [(arr_whole0 6).set_eq_univ]; rfl
theorem arr_holds_7 (c : Dev nD) :
    (((cfg0.win 7).arr.view.loc (c.tc : Thread nD τ)) ↦[(cfg0.win 7).arr.view.set]{(dats m 0 c).share 7} (dats m 0 c).arrAt 7 0 : sProp 𝕄)
      = (((c.tc : Thread nD τ).loc (Pipeline.arrRef spec0 7)) ↦{fullShare} V m c (Pipeline.arrRef spec0 7)) := by
  rw [(arr_whole0 7).set_eq_univ]; rfl
theorem arr_holds_8 (c : Dev nD) :
    (((cfg0.win 8).arr.view.loc (c.tc : Thread nD τ)) ↦[(cfg0.win 8).arr.view.set]{(dats m 0 c).share 8} (dats m 0 c).arrAt 8 0 : sProp 𝕄)
      = (((c.tc : Thread nD τ).loc (Pipeline.arrRef spec0 8)) ↦{fullShare} V m c (Pipeline.arrRef spec0 8)) := by
  rw [(arr_whole0 8).set_eq_univ]; rfl
theorem arr_holds_9 (c : Dev nD) :
    (((cfg0.win 9).arr.view.loc (c.tc : Thread nD τ)) ↦[(cfg0.win 9).arr.view.set]{(dats m 0 c).share 9} (dats m 0 c).arrAt 9 0 : sProp 𝕄)
      = (((c.tc : Thread nD τ).loc (Pipeline.arrRef spec0 9)) ↦{fullShare} V m c (Pipeline.arrRef spec0 9)) := by
  rw [(arr_whole0 9).set_eq_univ]; rfl
theorem arr_holds_10 (c : Dev nD) :
    (((cfg0.win 10).arr.view.loc (c.tc : Thread nD τ)) ↦[(cfg0.win 10).arr.view.set]{(dats m 0 c).share 10} (dats m 0 c).arrAt 10 0 : sProp 𝕄)
      = (((c.tc : Thread nD τ).loc (Pipeline.arrRef spec0 10)) ↦{fullShare} V m c (Pipeline.arrRef spec0 10)) := by
  rw [(arr_whole0 10).set_eq_univ]; rfl
theorem arr_holds_11 (c : Dev nD) :
    (((cfg0.win 11).arr.view.loc (c.tc : Thread nD τ)) ↦[(cfg0.win 11).arr.view.set]{(dats m 0 c).share 11} (dats m 0 c).arrAt 11 0 : sProp 𝕄)
      = (((c.tc : Thread nD τ).loc (Pipeline.arrRef spec0 11)) ↦{fullShare} V m c (Pipeline.arrRef spec0 11)) := by
  rw [(arr_whole0 11).set_eq_univ]; rfl

/-- The eleven distinct arrays, listed. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg1) ↦{fullShare} V m c main_arg1) ∗ (((c.tc : Thread nD τ).loc main_arg0) ↦{fullShare} V m c main_arg0) ∗ (((c.tc : Thread nD τ).loc main_arg2) ↦{fullShare} V m c main_arg2) ∗ (((c.tc : Thread nD τ).loc main_arg3) ↦{fullShare} V m c main_arg3) ∗ (((c.tc : Thread nD τ).loc main_arg4) ↦{fullShare} V m c main_arg4) ∗ (((c.tc : Thread nD τ).loc main_arg5) ↦{fullShare} V m c main_arg5) ∗ (((c.tc : Thread nD τ).loc main_arg6) ↦{fullShare} V m c main_arg6) ∗ (((c.tc : Thread nD τ).loc main_arg7) ↦{fullShare} V m c main_arg7) ∗ (((c.tc : Thread nD τ).loc main_arg8) ↦{fullShare} V m c main_arg8) ∗ (((c.tc : Thread nD τ).loc main_arg9) ↦{fullShare} V m c main_arg9) ∗ (((c.tc : Thread nD τ).loc main_v0) ↦{fullShare} V m c main_v0)) := by
  unfold Pipeline.arrBufs
  exact bigSep_eq_bigSepL_of_eq _ arrRefs_eq (by decide) _

/-- The eleven arrays, each whole at the full share, are the twelve windows' holdings. -/
theorem hsplit (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  rw [arrBufs_eq]
  unfold Dat.arrays
  rw [bigSep_W0]
  rw [arr_holds_0 m c, arr_holds_1 m c, arr_holds_2 m c, arr_holds_3 m c, arr_holds_4 m c, arr_holds_5 m c, arr_holds_6 m c, arr_holds_7 m c, arr_holds_8 m c, arr_holds_9 m c, arr_holds_10 m c, arr_holds_11 m c]
  iintro ⟨H1, H0, H2, H3, H4, H5, H6, H7, H8, H9, Hv⟩
  ihave H0' := (pointsTo_share (PosShare.mem_left_op_right fullShare)).1 $$ H0
  icases H0' with ⟨H0l, H0r⟩
  isplitl [H1]; · iexact H1
  isplitl [H0l]; · iexact H0l
  isplitl [H0r]; · iexact H0r
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact Hv

/-- Nothing of @main's bypasses the region: every unscoped buffer is a window's array. -/
theorem hX (c : Dev nD) :
    (Pipeline.unscopedRest (Ix := Unit) (Name := ℕ) (U := UR sig nD τ) (Lvl := ℕ) spec0 c (V m c) : sProp 𝕄)
      ⊢ iprop((BI.emp : sProp 𝕄) ∗ (BI.emp : sProp 𝕄)) := by
  rw [unscopedRest0_eq]
  iintro -
  isplitr <;> iempintro

/-- What the launch hands the region is the invariant before the first point: the accumulators at anything. -/
theorem hin (c : Dev nD) :
    iprop((BI.emp : sProp 𝕄) ∗ Pipeline.scopedRest (Ix := Unit) (Name := ℕ) (U := UR sig nD τ) (Lvl := ℕ) (Val := Elt F) spec0 c)
      ⊢ (dats m 0 c).Φ 0 := by
  rw [show (dats m 0 c).Φ 0 = PhiS m c 0 (Nat.zero_le _) from rfl, PhiS_zero m c 0 _ rfl, scoped_eq]
  iintro ⟨-, H⟩
  iexact H

/-- After the last point the accumulators' contents are forgotten. -/
theorem hout (c : Dev nD) :
    (dats m 0 c).Φ (Fin.last cfg0.N)
      ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), scoped_eq]
  iintro ⟨HS0, HS1⟩
  isplitr; · iempintro
  isplitl [HS0]
  · iexists _; iexact HS0
  iexists _; iexact HS1

set_option backward.isDefEq.respectTransparency.types false in
/-- Given the body obligation: every weakly fair execution of @main terminates, nothing faulting, with every window's
    array at what the proof data computes from the write-backs. -/
theorem run_arrays (hbody : ∀ c, BodyObligation (dats (F := F) m 0 c) (defs₀ (F := F)) Variants.none () Set.univ) :
    θ_run (defs (F := F)) (onTc (τ := τ) (main (F := F))) ⟨m, fun _ => 0, ρ⟩
      (fun r => ∀ c : Dev nD, ∀ w : Fin cfg0.W,
        r.2.mem (((cfg0).spec w).arr.view.loc (c.tc : Thread nD τ)) = (dats m 0 c).arrAt w cfg0.N) := by
  classical
  exact Pipeline.θ_run_region_noSem_shared cfgs (dats m) () cellOf_inj (0 : Fin 1) winFacts₀0 emb₁ defs₀ Variants.none m ρ main
    (hbody := fun c => (hbody c).loose) (hne := block_pos0) (harr := arr_whole0) (hstage := stage_whole0)
    (howed := fun _ _ => rfl)
    (u₀ := initOf (cells cfgs cellOf_inj) (launchToks cfgs cellOf_inj)) (hu₀ := .rfl)
    (V := V m) (hmain := Pipeline.hmain_region cfgs 0 defs₀ Variants.none m main (fun _ => rfl))
    (hsplit := hsplit m)
    (X := fun _ => BI.emp) (Y := fun _ => BI.emp) (Z := fun _ => BI.emp)
    (hX := hX m) (hin := hin m) (hout := hout m)
    (QY := fun _ _ => True)
    (hY := fun c s' => by
      iintro ⟨-, -, HSI⟩
      imodintro
      isplitr; · ipureintro; trivial
      iexact HSI)
    (hQ := fun s h c w => (h c).1 w)

end Cert.KernelIdeal.Fr

end
-- ==== Proof.KernelIdealFrame.lean ====
/-
  The kernel's run, stated for the claims. Every weakly fair execution of @main terminates, nothing faulting; the
  result array ends at what the write-backs of the output window's blocks leave, and the ten argument arrays end as
  they began: each is read through input windows only, and an input window's array is never written.
-/
import proofs.«153857_j5291399708711_1_alg».proof.Proof.KernelIdealBody
import proofs.«153857_j5291399708711_1_alg».proof.Proof.KernelIdealLaunch

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable [∀ e, Nonempty (Elt F e)]

/-- Every window's array after the run. -/
theorem run_main : θ_run (defs (F := F)) (onTc (τ := τ) (main (F := F))) ⟨m, fun _ => 0, ρ⟩
    (fun r => ∀ c : Dev nD, ∀ w : Fin cfg0.W,
      r.2.mem (((cfg0).spec w).arr.view.loc (c.tc : Thread nD τ)) = (dats m 0 c).arrAt w cfg0.N) :=
  run_arrays m ρ (body_obligation m)

/-- An input window's array is never written: after the run it holds the launch memory's contents. -/
theorem kept (c : Dev nD) (w : Fin cfg0.W) (hw : (cfg0.win w).isOut = false) :
    (dats m 0 c).arrAt w cfg0.N = V m c (Pipeline.arrRef spec0 w) :=
  ((dats m 0 c).arrAt_in w hw _).trans (A_eq m c w)

/-- The run with the result array named and the arguments unchanged. -/
theorem run_named : θ_run (defs (F := F)) (onTc (τ := τ) (main (F := F))) ⟨m, fun _ => 0, ρ⟩ (fun r => ∀ c : Dev nD,
      r.2.mem ((c.tc : Thread nD τ).loc main_v0) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := F)) _ _).mono (fun r h c => ⟨h c 11, (h c 1).trans (kept m c 1 rfl), (h c 0).trans (kept m c 0 rfl), (h c 3).trans (kept m c 3 rfl), (h c 4).trans (kept m c 4 rfl), (h c 5).trans (kept m c 5 rfl), (h c 6).trans (kept m c 6 rfl), (h c 7).trans (kept m c 7 rfl), (h c 8).trans (kept m c 8 rfl), (h c 9).trans (kept m c 9 rfl), (h c 10).trans (kept m c 10 rfl)⟩) (run_main m ρ)

/-- The frame: the run ends, nothing faults, the arguments end unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := F)) _ _).mono (fun r h c => (h c).2) (run_named m ρ)

end Cert.KernelIdeal.Fr

end
-- ==== Proof.KernelIdealPieces.lean ====
/-
  What each case leaves, as the body's arithmetic. The pieces a run found are whole-buffer stores of the body's named
  values, so reading them back gives those values: after the first case the accumulators hold one step from the reset
  value; after the others one step from what they held; and the output block holds the layer's rows computed from the
  accumulators as this point leaves them.
-/
import proofs.«153857_j5291399708711_1_alg».proof.Proof.KernelIdealData
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable [∀ e, Nonempty (Elt F e)]

/-- The two-axis offsets of a store at the origin are zero on every axis. -/
theorem hz2 : (![0, 0] : Fin 2 → Nat) = fun _ => 0 := funext fun a => by fin_cases a <;> rfl

/-- The one-axis offset of a load at the origin is zero. -/
theorem hz1 : (![0] : Fin 1 → Nat) = fun _ => 0 := funext fun a => by fin_cases a; rfl

theorem soutA_0_eq (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1 .f32) (harg15 : arg15.IsWhole) (hc0 : cond0_0 i) (hc1 : ¬cond0_1 i)
    (x0 : Vec F S512x4096 .f32) (x1 : Vec F S4096x128 .f32) :
    soutA_0 (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 = k0_pay4 (F := F) x0 x1 (k0_pay1 (F := F)) := by
  unfold soutA_0
  rw [View.read_writes_eq_canon _ _ _ (scoverA_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1)]
  unfold kernelRun0_A
  dsimp only
  sl_unfold_words
  rw [View.canon_cons_unit_zero (S := S512x128) hz2, View.readCov_unit_zero (S := S512x128) _ hz2]
  simp only [View.readAt_eq_ld, harg2.read_unread, harg3.read_unread, harg4.read_unread, harg5.read_unread,
    harg6.read_unread, harg7.read_unread, harg8.read_unread, harg9.read_unread, harg10.read_unread, harg11.read_unread,
    harg12.read_unread, harg14.read_unread, harg15.read_unread,
    View.ld_unit_zero (S := S512x4096) hz2, View.ld_unit_zero (S := S4096x128) hz2, View.ld_unit_zero (S := S512x128) hz2,
    View.ld_unit_zero (S := S512x1) hz2, View.ld_unit_zero (S := S128x128) hz2, View.ld_unit_zero (S := S256x128) hz2,
    View.ld_unit_zero (S := S128) hz1,
    View.readCov_unit_zero (S := S512x128) _ hz2, View.readCov_unit_zero (S := S512x1) _ hz2]

theorem soutA_1_eq (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1 .f32) (harg15 : arg15.IsWhole) (hc0 : cond0_0 i) (hc1 : ¬cond0_1 i)
    (x0 : Vec F S512x4096 .f32) (x1 : Vec F S4096x128 .f32) :
    soutA_1 (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 = k0_pay3 (F := F) x0 (k0_pay2 (F := F)) := by
  unfold soutA_1
  rw [View.read_writes_eq_canon _ _ _ (scoverA_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1)]
  unfold kernelRun0_A
  dsimp only
  sl_unfold_words
  rw [View.canon_cons_unit_zero (S := S512x1) hz2, View.readCov_unit_zero (S := S512x1) _ hz2]
  simp only [View.readAt_eq_ld, harg2.read_unread, harg3.read_unread, harg4.read_unread, harg5.read_unread,
    harg6.read_unread, harg7.read_unread, harg8.read_unread, harg9.read_unread, harg10.read_unread, harg11.read_unread,
    harg12.read_unread, harg14.read_unread, harg15.read_unread,
    View.ld_unit_zero (S := S512x4096) hz2, View.ld_unit_zero (S := S4096x128) hz2, View.ld_unit_zero (S := S512x128) hz2,
    View.ld_unit_zero (S := S512x1) hz2, View.ld_unit_zero (S := S128x128) hz2, View.ld_unit_zero (S := S256x128) hz2,
    View.ld_unit_zero (S := S128) hz1,
    View.readCov_unit_zero (S := S512x128) _ hz2, View.readCov_unit_zero (S := S512x1) _ hz2]

theorem soutB_0_eq (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1 .f32) (harg15 : arg15.IsWhole) (hc0 : ¬cond0_0 i) (hc1 : ¬cond0_1 i)
    (x0 : Vec F S512x4096 .f32) (x1 : Vec F S4096x128 .f32) (xs0 : Vec F S512x128 .f32) (xs1 : Vec F S512x1 .f32) :
    soutB_0 (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 = k0_pay4 (F := F) x0 x1 xs0 := by
  unfold soutB_0
  rw [View.read_writes_eq_canon _ _ _ (scoverB_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1)]
  unfold kernelRun0_B
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg10.read_unread, harg11.read_unread,
    harg12.read_unread, harg14.read_unread, harg15.read_unread,
    View.ld_unit_zero (S := S512x4096) hz2, View.ld_unit_zero (S := S4096x128) hz2, View.ld_unit_zero (S := S512x128) hz2,
    View.ld_unit_zero (S := S512x1) hz2, View.ld_unit_zero (S := S128x128) hz2, View.ld_unit_zero (S := S256x128) hz2,
    View.ld_unit_zero (S := S128) hz1,
    View.readCov_unit_zero (S := S512x128) _ hz2, View.readCov_unit_zero (S := S512x1) _ hz2]

theorem soutB_1_eq (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1 .f32) (harg15 : arg15.IsWhole) (hc0 : ¬cond0_0 i) (hc1 : ¬cond0_1 i)
    (x0 : Vec F S512x4096 .f32) (x1 : Vec F S4096x128 .f32) (xs0 : Vec F S512x128 .f32) (xs1 : Vec F S512x1 .f32) :
    soutB_1 (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 = k0_pay3 (F := F) x0 xs1 := by
  unfold soutB_1
  rw [View.read_writes_eq_canon _ _ _ (scoverB_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1)]
  unfold kernelRun0_B
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg10.read_unread, harg11.read_unread,
    harg12.read_unread, harg14.read_unread, harg15.read_unread,
    View.ld_unit_zero (S := S512x4096) hz2, View.ld_unit_zero (S := S4096x128) hz2, View.ld_unit_zero (S := S512x128) hz2,
    View.ld_unit_zero (S := S512x1) hz2, View.ld_unit_zero (S := S128x128) hz2, View.ld_unit_zero (S := S256x128) hz2,
    View.ld_unit_zero (S := S128) hz1,
    View.readCov_unit_zero (S := S512x128) _ hz2, View.readCov_unit_zero (S := S512x1) _ hz2]

theorem soutC_0_eq (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1 .f32) (harg15 : arg15.IsWhole) (hc0 : ¬cond0_0 i) (hc1 : cond0_1 i)
    (x0 : Vec F S512x4096 .f32) (x1 : Vec F S4096x128 .f32) (x2 : Vec F S512x128 .f32) (x3 : Vec F S128x128 .f32) (x4 : Vec F S128 .f32) (x5 : Vec F S128x128 .f32) (x6 : Vec F S128 .f32) (x7 : Vec F S256x128 .f32) (x8 : Vec F S128 .f32) (x9 : Vec F S128 .f32) (x10 : Vec F S128 .f32) (xs0 : Vec F S512x128 .f32) (xs1 : Vec F S512x1 .f32) :
    soutC_0 (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay4 (F := F) x0 x1 xs0 := by
  unfold soutC_0
  rw [View.read_writes_eq_canon _ _ _ (scoverC_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_C
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg10.read_unread, harg11.read_unread,
    harg12.read_unread, harg14.read_unread, harg15.read_unread,
    View.ld_unit_zero (S := S512x4096) hz2, View.ld_unit_zero (S := S4096x128) hz2, View.ld_unit_zero (S := S512x128) hz2,
    View.ld_unit_zero (S := S512x1) hz2, View.ld_unit_zero (S := S128x128) hz2, View.ld_unit_zero (S := S256x128) hz2,
    View.ld_unit_zero (S := S128) hz1,
    View.readCov_unit_zero (S := S512x128) _ hz2, View.readCov_unit_zero (S := S512x1) _ hz2]

theorem soutC_1_eq (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1 .f32) (harg15 : arg15.IsWhole) (hc0 : ¬cond0_0 i) (hc1 : cond0_1 i)
    (x0 : Vec F S512x4096 .f32) (x1 : Vec F S4096x128 .f32) (x2 : Vec F S512x128 .f32) (x3 : Vec F S128x128 .f32) (x4 : Vec F S128 .f32) (x5 : Vec F S128x128 .f32) (x6 : Vec F S128 .f32) (x7 : Vec F S256x128 .f32) (x8 : Vec F S128 .f32) (x9 : Vec F S128 .f32) (x10 : Vec F S128 .f32) (xs0 : Vec F S512x128 .f32) (xs1 : Vec F S512x1 .f32) :
    soutC_1 (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay3 (F := F) x0 xs1 := by
  unfold soutC_1
  rw [View.read_writes_eq_canon _ _ _ (scoverC_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_C
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg10.read_unread, harg11.read_unread,
    harg12.read_unread, harg14.read_unread, harg15.read_unread,
    View.ld_unit_zero (S := S512x4096) hz2, View.ld_unit_zero (S := S4096x128) hz2, View.ld_unit_zero (S := S512x128) hz2,
    View.ld_unit_zero (S := S512x1) hz2, View.ld_unit_zero (S := S128x128) hz2, View.ld_unit_zero (S := S256x128) hz2,
    View.ld_unit_zero (S := S128) hz1,
    View.readCov_unit_zero (S := S512x128) _ hz2, View.readCov_unit_zero (S := S512x1) _ hz2]

/-- The stored rows: the finishing step applied to the accumulators as this point leaves them. -/
theorem outC_11_eq (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1 .f32) (harg15 : arg15.IsWhole) (hc0 : ¬cond0_0 i) (hc1 : cond0_1 i)
    (x0 : Vec F S512x4096 .f32) (x1 : Vec F S4096x128 .f32) (x2 : Vec F S512x128 .f32) (x3 : Vec F S128x128 .f32) (x4 : Vec F S128 .f32) (x5 : Vec F S128x128 .f32) (x6 : Vec F S128 .f32) (x7 : Vec F S256x128 .f32) (x8 : Vec F S128 .f32) (x9 : Vec F S128 .f32) (x10 : Vec F S128 .f32) (xs0 : Vec F S512x128 .f32) (xs1 : Vec F S512x1 .f32) :
    outC_11 (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1
      = k0_pay5 (F := F) (k0_pay6 (F := F) (k0_pay3 (F := F) x0 xs1) (k0_pay4 (F := F) x0 x1 xs0) x5 x6 x2 x3 x4 x7 x8) (k0_pay7 (F := F) (k0_pay3 (F := F) x0 xs1) (k0_pay4 (F := F) x0 x1 xs0) x5 x6 x2 x3 x4 x7 x8) (k0_pay8 (F := F) (k0_pay3 (F := F) x0 xs1) (k0_pay4 (F := F) x0 x1 xs0) x5 x6 x2 x3 x4 x7 x8) x9 x10 := by
  unfold outC_11
  rw [View.read_writes_eq_canon _ _ _ (coverC_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_C
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg10.read_unread, harg11.read_unread,
    harg12.read_unread, harg14.read_unread, harg15.read_unread,
    View.ld_unit_zero (S := S512x4096) hz2, View.ld_unit_zero (S := S4096x128) hz2, View.ld_unit_zero (S := S512x128) hz2,
    View.ld_unit_zero (S := S512x1) hz2, View.ld_unit_zero (S := S128x128) hz2, View.ld_unit_zero (S := S256x128) hz2,
    View.ld_unit_zero (S := S128) hz1,
    View.readCov_unit_zero (S := S512x128) _ hz2, View.readCov_unit_zero (S := S512x1) _ hz2]

end Cert.KernelIdeal.Fr

end
-- ==== Proof.LibRowBlock.lean ====
/-
  Row blocks of a matrix under operations that treat rows independently, at the exact instance.

  A matrix `a` with `B` rows IS THE `t`-TH ROW BLOCK of a matrix `A` with the same columns when
  `a (p, j) = A (B·t + p, j)` for every row `p` of the block. Every operation that computes row `r` of its
  result from rows `r` of its operands alone sends row blocks to row blocks: a column slice, a concatenation
  along the columns, a pointwise operation, a constant splat, a bias row added to every row, and a product with a
  matrix on the right (row `r` of `L·R` is `∑ₖ L(r,k)·R(k,·)`). The lemmas below say so, one per operation,
  with the whole-matrix side spelt as a host program spells it and the block side as a kernel body does.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowBlock

open Idealize.ShloMosaic Idealize.ShloMosaic.ValueIdx

/-- `a` is rows `B·t, …, B·t + B − 1` of `A`. -/
def IsRows {α : Type} {N n : Nat} (B t : Nat) (A : (⟨2, ![N, n]⟩ : Shape).Idx → α) (a : (⟨2, ![B, n]⟩ : Shape).Idx → α) : Prop :=
  ∀ (p : Fin B) (j : Fin n) (r : Fin N), r.val = B * t + p.val → a (ix2 p j) = A (ix2 r j)

namespace IsRows

variable {α : Type} {N n B t : Nat}

/-! ## Layout -/

/-- Columns `o, …, o + m − 1` of a row block are the row block of those columns. -/
theorem slice {A : (⟨2, ![N, n]⟩ : Shape).Idx → α} {a : (⟨2, ![B, n]⟩ : Shape).Idx → α} (H : IsRows B t A a) (o m : Nat)
    (hA : (⟨2, ![N, n]⟩ : Shape).Slices ![0, o] ⟨2, ![N, m]⟩) (ha : (⟨2, ![B, n]⟩ : Shape).Slices ![0, o] ⟨2, ![B, m]⟩) :
    IsRows B t (extractStridedSlice ⟨2, ![N, m]⟩ ![0, o] A hA) (extractStridedSlice ⟨2, ![B, m]⟩ ![0, o] a ha) := by
  intro p j r hr
  rw [slice2_axis1_eq, slice2_axis1_eq]
  exact H p _ r hr

/-- A concatenation along the columns read at column `j`: piece `k`, whose columns start at `pre`, at column `j − pre`. -/
theorem concat_cols_apply {R n m : Nat} (xs : List ((s : Shape) × (s.Idx → α)))
    (h : Shape.Concatenates (xs.map (·.1)) ⟨2, ![R, n]⟩ 1)
    (k : Nat) (hk : k < xs.length) (x : (⟨2, ![R, m]⟩ : Shape).Idx → α) (hxk : xs[k] = ⟨⟨2, ![R, m]⟩, x⟩) (pre : Nat)
    (hpre : (((xs.take k).map (·.1)).map fun s => if h : s.rank = (⟨2, ![R, n]⟩ : Shape).rank
        then s.size ((1 : Fin (⟨2, ![R, n]⟩ : Shape).rank).cast h.symm) else 0).sum = pre)
    (r : Fin R) (j : Fin n) (j' : Fin m) (hj : pre + j'.val = j.val) :
    concatenate ⟨2, ![R, n]⟩ 1 xs h (ix2 r j) = x (ix2 r j') :=
  concatenate_apply_piece 1 xs h (ix2 r j) k hk _ x hxk rfl pre hpre (ix2 r j')
    (fun b hb => by
      match b with
      | ⟨0, _⟩ => rfl
      | ⟨1, _⟩ => exact absurd rfl hb) hj

/-- Two row blocks side by side are the row block of the two matrices side by side. -/
theorem concat2 {n₁ n₂ : Nat} {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    (H₁ : IsRows B t A₁ a₁) (H₂ : IsRows B t A₂ a₂) (hn : n = n₁ + n₂)
    (hA : Shape.Concatenates [(⟨2, ![N, n₁]⟩ : Shape), ⟨2, ![N, n₂]⟩] ⟨2, ![N, n]⟩ 1)
    (ha : Shape.Concatenates [(⟨2, ![B, n₁]⟩ : Shape), ⟨2, ![B, n₂]⟩] ⟨2, ![B, n]⟩ 1) :
    IsRows B t (concatenate ⟨2, ![N, n]⟩ 1 [⟨⟨2, ![N, n₁]⟩, A₁⟩, ⟨⟨2, ![N, n₂]⟩, A₂⟩] hA)
      (concatenate ⟨2, ![B, n]⟩ 1 [⟨⟨2, ![B, n₁]⟩, a₁⟩, ⟨⟨2, ![B, n₂]⟩, a₂⟩] ha) := by
  intro p j r hr
  by_cases hj : j.val < n₁
  · rw [concat_cols_apply [⟨⟨2, ![N, n₁]⟩, A₁⟩, ⟨⟨2, ![N, n₂]⟩, A₂⟩] hA 0 (by simp) A₁ rfl 0 rfl r j ⟨j.val, hj⟩ (Nat.zero_add _),
      concat_cols_apply [⟨⟨2, ![B, n₁]⟩, a₁⟩, ⟨⟨2, ![B, n₂]⟩, a₂⟩] ha 0 (by simp) a₁ rfl 0 rfl p j ⟨j.val, hj⟩ (Nat.zero_add _)]
    exact H₁ p _ r hr
  · have hj2 : j.val - n₁ < n₂ := by have := j.isLt; omega
    have hj3 : n₁ + (j.val - n₁) = j.val := by omega
    rw [concat_cols_apply [⟨⟨2, ![N, n₁]⟩, A₁⟩, ⟨⟨2, ![N, n₂]⟩, A₂⟩] hA 1 (by simp) A₂ rfl n₁ rfl r j ⟨j.val - n₁, hj2⟩ hj3,
      concat_cols_apply [⟨⟨2, ![B, n₁]⟩, a₁⟩, ⟨⟨2, ![B, n₂]⟩, a₂⟩] ha 1 (by simp) a₂ rfl n₁ rfl p j ⟨j.val - n₁, hj2⟩ hj3]
    exact H₂ p _ r hr

/-- Six row blocks side by side are the row block of the six matrices side by side. -/
theorem concat6 {n₁ n₂ n₃ n₄ n₅ n₆ : Nat}
    {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    {A₃ : (⟨2, ![N, n₃]⟩ : Shape).Idx → α} {a₃ : (⟨2, ![B, n₃]⟩ : Shape).Idx → α}
    {A₄ : (⟨2, ![N, n₄]⟩ : Shape).Idx → α} {a₄ : (⟨2, ![B, n₄]⟩ : Shape).Idx → α}
    {A₅ : (⟨2, ![N, n₅]⟩ : Shape).Idx → α} {a₅ : (⟨2, ![B, n₅]⟩ : Shape).Idx → α}
    {A₆ : (⟨2, ![N, n₆]⟩ : Shape).Idx → α} {a₆ : (⟨2, ![B, n₆]⟩ : Shape).Idx → α}
    (H₁ : IsRows B t A₁ a₁) (H₂ : IsRows B t A₂ a₂) (H₃ : IsRows B t A₃ a₃) (H₄ : IsRows B t A₄ a₄)
    (H₅ : IsRows B t A₅ a₅) (H₆ : IsRows B t A₆ a₆) (hn : n = n₁ + n₂ + n₃ + n₄ + n₅ + n₆)
    (hA : Shape.Concatenates [(⟨2, ![N, n₁]⟩ : Shape), ⟨2, ![N, n₂]⟩, ⟨2, ![N, n₃]⟩, ⟨2, ![N, n₄]⟩, ⟨2, ![N, n₅]⟩, ⟨2, ![N, n₆]⟩] ⟨2, ![N, n]⟩ 1)
    (ha : Shape.Concatenates [(⟨2, ![B, n₁]⟩ : Shape), ⟨2, ![B, n₂]⟩, ⟨2, ![B, n₃]⟩, ⟨2, ![B, n₄]⟩, ⟨2, ![B, n₅]⟩, ⟨2, ![B, n₆]⟩] ⟨2, ![B, n]⟩ 1) :
    IsRows B t
      (concatenate ⟨2, ![N, n]⟩ 1 [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA)
      (concatenate ⟨2, ![B, n]⟩ 1 [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha) := by
  intro p j r hr
  have hjn := j.isLt
  by_cases c₁ : j.val < n₁
  · rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 0 (by simp) A₁ rfl 0 rfl r j ⟨j.val, c₁⟩ (Nat.zero_add _),
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 0 (by simp) a₁ rfl 0 rfl p j ⟨j.val, c₁⟩ (Nat.zero_add _)]
    exact H₁ p _ r hr
  by_cases c₂ : j.val < n₁ + n₂
  · have hb : j.val - n₁ < n₂ := by omega
    have he : n₁ + (j.val - n₁) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 1 (by simp) A₂ rfl n₁ rfl r j ⟨j.val - n₁, hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 1 (by simp) a₂ rfl n₁ rfl p j ⟨j.val - n₁, hb⟩ he]
    exact H₂ p _ r hr
  by_cases c₃ : j.val < n₁ + n₂ + n₃
  · have hb : j.val - (n₁ + n₂) < n₃ := by omega
    have he : n₁ + n₂ + (j.val - (n₁ + n₂)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 2 (by simp) A₃ rfl (n₁ + n₂) (by simp) r j ⟨j.val - (n₁ + n₂), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 2 (by simp) a₃ rfl (n₁ + n₂) (by simp) p j ⟨j.val - (n₁ + n₂), hb⟩ he]
    exact H₃ p _ r hr
  by_cases c₄ : j.val < n₁ + n₂ + n₃ + n₄
  · have hb : j.val - (n₁ + n₂ + n₃) < n₄ := by omega
    have he : n₁ + n₂ + n₃ + (j.val - (n₁ + n₂ + n₃)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 3 (by simp) A₄ rfl (n₁ + n₂ + n₃) (by simp; omega) r j ⟨j.val - (n₁ + n₂ + n₃), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 3 (by simp) a₄ rfl (n₁ + n₂ + n₃) (by simp; omega) p j ⟨j.val - (n₁ + n₂ + n₃), hb⟩ he]
    exact H₄ p _ r hr
  by_cases c₅ : j.val < n₁ + n₂ + n₃ + n₄ + n₅
  · have hb : j.val - (n₁ + n₂ + n₃ + n₄) < n₅ := by omega
    have he : n₁ + n₂ + n₃ + n₄ + (j.val - (n₁ + n₂ + n₃ + n₄)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 4 (by simp) A₅ rfl (n₁ + n₂ + n₃ + n₄) (by simp; omega) r j ⟨j.val - (n₁ + n₂ + n₃ + n₄), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 4 (by simp) a₅ rfl (n₁ + n₂ + n₃ + n₄) (by simp; omega) p j ⟨j.val - (n₁ + n₂ + n₃ + n₄), hb⟩ he]
    exact H₅ p _ r hr
  · have hb : j.val - (n₁ + n₂ + n₃ + n₄ + n₅) < n₆ := by omega
    have he : n₁ + n₂ + n₃ + n₄ + n₅ + (j.val - (n₁ + n₂ + n₃ + n₄ + n₅)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 5 (by simp) A₆ rfl (n₁ + n₂ + n₃ + n₄ + n₅) (by simp; omega) r j ⟨j.val - (n₁ + n₂ + n₃ + n₄ + n₅), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 5 (by simp) a₆ rfl (n₁ + n₂ + n₃ + n₄ + n₅) (by simp; omega) p j ⟨j.val - (n₁ + n₂ + n₃ + n₄ + n₅), hb⟩ he]
    exact H₆ p _ r hr

/-- One row broadcast over all rows: its row block is the same row broadcast over the block's rows. -/
theorem bias (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ b hc) hb) := by
  intro p j r _
  rw [broadcastTo_1b_ab_apply, shapeCast_a_1a_apply]
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-! ## Pointwise operations at the exact instance -/

section Arith
variable {φ : FTy} {A A' : FVec Ideal ⟨2, ![N, n]⟩ φ} {a a' : FVec Ideal ⟨2, ![B, n]⟩ φ}

/-- A constant splat: every entry is the constant's value, in the matrix and in the block. -/
theorem splat (φ : FTy) (c : BitVec φ.bits) (h : (⟨0, ![]⟩ : Shape).BroadcastsInDim ⟨2, ![N, n]⟩ ![]) :
    IsRows B t (broadcastInDim ⟨2, ![N, n]⟩ ![] h (constant (F := Ideal) ⟨0, ![]⟩ φ c))
      (broadcast ⟨2, ![B, n]⟩ (Scalar.ofBits (F := Ideal) φ c)) :=
  fun _ _ _ _ => rfl

/-- A change of float format is the identity on extended reals. -/
theorem trunc {ψ : FTy} (H : IsRows B t A a) (h : ψ.bits < φ.bits) : IsRows B t A (truncf ψ a h) :=
  fun p j r hr => H p j r hr

theorem add (H : IsRows B t A a) (H' : IsRows B t A' a') : IsRows B t (addf A A') (addf a a') := by
  intro p j r hr
  rw [addf_apply, addf_apply, H p j r hr, H' p j r hr]

theorem mul (H : IsRows B t A a) (H' : IsRows B t A' a') : IsRows B t (mulf A A') (mulf a a') := by
  intro p j r hr
  rw [mulf_apply, mulf_apply, H p j r hr, H' p j r hr]

theorem sub (H : IsRows B t A a) (H' : IsRows B t A' a') : IsRows B t (subf A A') (subf a a') := by
  intro p j r hr
  rw [subf_apply, subf_apply, H p j r hr, H' p j r hr]

theorem maxf (H : IsRows B t A a) (H' : IsRows B t A' a') : IsRows B t (maximumf A A') (maximumf a a') := by
  intro p j r hr
  rw [maximumf_apply, maximumf_apply, H p j r hr, H' p j r hr]

theorem minf (H : IsRows B t A a) (H' : IsRows B t A' a') : IsRows B t (minimumf A A') (minimumf a a') := by
  intro p j r hr
  rw [minimumf_apply, minimumf_apply, H p j r hr, H' p j r hr]

/-- The host's exponential and the kernel's are one function of an extended real. -/
theorem expf (H : IsRows B t A a) : IsRows B t (Host.exp A) (exp a) := by
  intro p j r hr
  show Ideal.exp (a (ix2 p j)) = Ideal.exp (A (ix2 r j))
  rw [H p j r hr]

/-- The host's hyperbolic tangent and the kernel's are one function of an extended real. -/
theorem tanhf (H : IsRows B t A a) : IsRows B t (Host.tanh A) (tanh a) := by
  intro p j r hr
  show Ideal.tanh (a (ix2 p j)) = Ideal.tanh (A (ix2 r j))
  rw [H p j r hr]

end Arith

/-- The word of the float 1 denotes the real 1. -/
theorem ofBits_one_f32 : Ideal.ofBits .f32 0x3F800000#32 = 1 := by
  simp [Ideal.ofBits, Ideal.ieee, -EReal.coe_mul]; norm_num

/-- The logistic function `1 / (1 + e⁻ˣ)`: spelt out with a negation, an exponential, a sum and a quotient on the whole
    matrix, and as one operation on the block; the two are one function of an extended real by definition. -/
theorem sigmoid {A : FVec Ideal ⟨2, ![N, n]⟩ .f32} {a : FVec Ideal ⟨2, ![B, n]⟩ .f32} (H : IsRows B t A a)
    (h1 h2 : (⟨0, ![]⟩ : Shape).BroadcastsInDim ⟨2, ![N, n]⟩ ![]) :
    IsRows B t
      (Host.divf (broadcastInDim ⟨2, ![N, n]⟩ ![] h1 (constant (F := Ideal) ⟨0, ![]⟩ .f32 0x3F800000#32))
        (addf (broadcastInDim ⟨2, ![N, n]⟩ ![] h2 (constant (F := Ideal) ⟨0, ![]⟩ .f32 0x3F800000#32)) (Host.exp (Host.negf A))))
      (logistic a) := by
  intro p j r hr
  show Ideal.logistic (a (ix2 p j))
    = Ideal.div (Ideal.ofBits .f32 0x3F800000#32) (Ideal.ofBits .f32 0x3F800000#32 + Ideal.exp (-(A (ix2 r j))))
  rw [ofBits_one_f32, H p j r hr]
  rfl

/-! ## A product with a matrix on the right -/

/-- The dimension numbers of a plain product `[M, K] × [K, N]`: the left operand contracted on its columns, the right on
    its rows, no batch axis. -/
def Plain {sl sr so : Shape} (D : DotDims sl sr so) (l1 l0 : Fin sl.rank) (r0 r1 : Fin sr.rank) : Prop :=
  D.lhsContracting = [l1] ∧ D.rhsContracting = [r0] ∧ D.lhsNonContracting = [l0] ∧ D.rhsNonContracting = [r1]
    ∧ D.lhsBatch = [] ∧ D.rhsBatch = []

/-- A plain product read at an entry is the sum over the shared axis. -/
theorem dot_plain_sum {M K N' : Nat} (D : DotDims ⟨2, ![M, K]⟩ ⟨2, ![K, N']⟩ ⟨2, ![M, N']⟩) (hD : Plain D 1 0 0 1)
    (L : (⟨2, ![M, K]⟩ : Shape).Idx → EReal) (R : (⟨2, ![K, N']⟩ : Shape).Idx → EReal) (r : Fin M) (c : Fin N') :
    ∑ k : D.contr.Idx, L (D.lhsIdx (ix2 r c) k) * R (D.rhsIdx (ix2 r c) k) = ∑ k : Fin K, L (ix2 r k) * R (ix2 k c) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have l0 : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact l0 _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact r1 _)
  rw [el, er]

/-- Rows of `L·R` depend on the same rows of `L` only: the host's product of the whole matrix against the kernel's
    product of the block into a zero accumulator, the right operand the same matrix on both sides. -/
theorem dot {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R : FVec Ideal ⟨2, ![K, M]⟩ .f32) (r : FVec Ideal ⟨2, ![K, M]⟩ φ₂) (hR : ∀ k j, r (ix2 k j) = R (ix2 k j)) :
    IsRows B t (Host.dotGeneral D none L R) (matmul d none l r (constant ⟨2, ![B, M]⟩ .f32 0x00000000#32)) := by
  intro p j r' hr
  simp only [Host.dotGeneral, matmul]
  rw [Ideal.matmul_constant_zero_apply, Ideal.dotGeneral_apply, dot_plain_sum d hd, dot_plain_sum D hD]
  exact Finset.sum_congr rfl fun k _ => by rw [H p k r' hr, hR]

end IsRows

end Cert.RowBlock

end
-- ==== Proof.Blocks.lean ====
/-
  How the kernel's grid cuts the adjacency matrix: the point with row-block number i and column-block number k reads
  the 512 × 4096 block of adj whose rows are 512·i … 512·i + 511 and whose columns are 4096·k … 4096·k + 4095.
-/
import proofs.«153857_j5291399708711_1_alg».proof.KernelIdeal
import proofs.«153857_j5291399708711_1_alg».proof.Proof.LibRowBlock

noncomputable section

namespace Cert.Blocks

open Idealize.ShloMosaic Idealize.ShloMosaic.ValueIdx

/-- `a` is rows 512·i …, columns 4096·k … of `adj`. -/
def IsAdjBlock {α : Type} (i k : Nat) (adj : (⟨2, ![16384, 16384]⟩ : Shape).Idx → α) (a : (⟨2, ![512, 4096]⟩ : Shape).Idx → α) : Prop :=
  ∀ (p : Fin 512) (q : Fin 4096) (r c : Fin 16384), r.val = 512 * i + p.val → c.val = 4096 * k + q.val →
    a (ix2 p q) = adj (ix2 r c)

end Cert.Blocks

end
-- ==== Proof.KernelIdealBlocksAt.lean ====
/-
  Which part of its array each input window's block is, at point t = 4·(row block) + (column block): the adjacency
  window reads rows 512·(t / 4) … and columns 4096·(t % 4) …; the first window on x reads its rows 4096·(t % 4) …, the
  second its rows 512·(t / 4) …; the eight parameter windows read their arrays whole at every point. The output
  window's block at a point with t % 4 = 3 is rows 512·(t / 4) … of the result array.
-/
import proofs.«153857_j5291399708711_1_alg».proof.Proof.KernelIdealData
import proofs.«153857_j5291399708711_1_alg».proof.Proof.Blocks

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.RowBlock Cert.Blocks

/-! ## The index maps, decided over the grid: point t has row block t / 4 and column block t % 4 -/

theorem idx0 : ∀ t : Fin cfg0.N, win0_0.index t (0 : Fin 2) = t.val / 4 ∧ win0_0.index t (1 : Fin 2) = t.val % 4 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)
theorem idx2 : ∀ t : Fin cfg0.N, win0_2.index t (0 : Fin 2) = t.val / 4 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 1) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 1) = 0 :=
  (by decide +kernel : ∀ t : Fin grid0.N, _)
theorem idx9 : ∀ t : Fin cfg0.N, win0_9.index t (0 : Fin 1) = 0 :=
  (by decide +kernel : ∀ t : Fin grid0.N, _)
theorem idx10 : ∀ t : Fin cfg0.N, win0_10.index t (0 : Fin 1) = 0 :=
  (by decide +kernel : ∀ t : Fin grid0.N, _)
theorem idx11 : ∀ t : Fin cfg0.N, win0_11.index t (0 : Fin 2) = t.val / 4 ∧ win0_11.index t (1 : Fin 2) = 0 :=
  (by decide +kernel : ∀ t : Fin grid0.N, _)

/-! ## The three moving input windows -/

theorem adj_block (c : Dev nD) (t : Fin cfg0.N) : IsAdjBlock (t.val / 4) (t.val % 4) (m ((c : Thread nD τ).loc main_arg1)) (iblk m c 0 t) := by
  intro p q r cc hr hc
  obtain ⟨e0, e1⟩ := idx0 t
  unfold iblk
  rw [View.read_apply]
  show V m c main_arg1 _ = m ((c : Thread nD τ).loc main_arg1) _
  unfold V
  congr 1
  funext a
  apply Fin.ext
  match a with
  | ⟨0, _⟩ => show win0_0.index t (0 : Fin 2) * 512 + 1 * p.val = r.val; rw [e0, hr]; omega
  | ⟨1, _⟩ => show win0_0.index t (1 : Fin 2) * 4096 + 1 * q.val = cc.val; rw [e1, hc]; omega

theorem xk_rows (c : Dev nD) (t : Fin cfg0.N) : IsRows 4096 (t.val % 4) (m ((c : Thread nD τ).loc main_arg0)) (iblk m c 1 t) := by
  intro p j r hr
  obtain ⟨e0, e1⟩ := idx1 t
  unfold iblk
  rw [View.read_apply]
  show V m c main_arg0 _ = m ((c : Thread nD τ).loc main_arg0) _
  unfold V
  congr 1
  funext a
  apply Fin.ext
  match a with
  | ⟨0, _⟩ => show win0_1.index t (0 : Fin 2) * 4096 + 1 * p.val = r.val; rw [e0, hr]; omega
  | ⟨1, _⟩ => show win0_1.index t (1 : Fin 2) * 128 + 1 * j.val = j.val; rw [e1]; omega

theorem xi_rows (c : Dev nD) (t : Fin cfg0.N) : IsRows 512 (t.val / 4) (m ((c : Thread nD τ).loc main_arg0)) (iblk m c 2 t) := by
  intro p j r hr
  obtain ⟨e0, e1⟩ := idx2 t
  unfold iblk
  rw [View.read_apply]
  show V m c main_arg0 _ = m ((c : Thread nD τ).loc main_arg0) _
  unfold V
  congr 1
  funext a
  apply Fin.ext
  match a with
  | ⟨0, _⟩ => show win0_2.index t (0 : Fin 2) * 512 + 1 * p.val = r.val; rw [e0, hr]; omega
  | ⟨1, _⟩ => show win0_2.index t (1 : Fin 2) * 128 + 1 * j.val = j.val; rw [e1]; omega

/-! ## The eight parameter windows: the block is the array -/

theorem whole_3 (c : Dev nD) (t : Fin cfg0.N) : iblk m c 3 t = (m ((c : Thread nD τ).loc main_arg2)) := by
  obtain ⟨e0, e1⟩ := idx3 t
  funext x
  unfold iblk
  rw [View.read_apply]
  show V m c main_arg2 _ = m ((c : Thread nD τ).loc main_arg2) x
  unfold V
  congr 1
  funext a
  apply Fin.ext
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

theorem whole_4 (c : Dev nD) (t : Fin cfg0.N) : iblk m c 4 t = (m ((c : Thread nD τ).loc main_arg3)) := by
  have e0 := idx4 t
  funext x
  unfold iblk
  rw [View.read_apply]
  show V m c main_arg3 _ = m ((c : Thread nD τ).loc main_arg3) x
  unfold V
  congr 1
  funext a
  apply Fin.ext
  match a with
  | ⟨0, _⟩ => show win0_4.index t (0 : Fin 1) * 128 + 1 * (x 0).val = (x 0).val; rw [e0]; omega

theorem whole_5 (c : Dev nD) (t : Fin cfg0.N) : iblk m c 5 t = (m ((c : Thread nD τ).loc main_arg4)) := by
  obtain ⟨e0, e1⟩ := idx5 t
  funext x
  unfold iblk
  rw [View.read_apply]
  show V m c main_arg4 _ = m ((c : Thread nD τ).loc main_arg4) x
  unfold V
  congr 1
  funext a
  apply Fin.ext
  match a with
  | ⟨0, _⟩ => show win0_5.index t (0 : Fin 2) * 128 + 1 * (x 0).val = (x 0).val; rw [e0]; omega
  | ⟨1, _⟩ => show win0_5.index t (1 : Fin 2) * 128 + 1 * (x 1).val = (x 1).val; rw [e1]; omega

theorem whole_6 (c : Dev nD) (t : Fin cfg0.N) : iblk m c 6 t = (m ((c : Thread nD τ).loc main_arg5)) := by
  have e0 := idx6 t
  funext x
  unfold iblk
  rw [View.read_apply]
  show V m c main_arg5 _ = m ((c : Thread nD τ).loc main_arg5) x
  unfold V
  congr 1
  funext a
  apply Fin.ext
  match a with
  | ⟨0, _⟩ => show win0_6.index t (0 : Fin 1) * 128 + 1 * (x 0).val = (x 0).val; rw [e0]; omega

theorem whole_7 (c : Dev nD) (t : Fin cfg0.N) : iblk m c 7 t = (m ((c : Thread nD τ).loc main_arg6)) := by
  obtain ⟨e0, e1⟩ := idx7 t
  funext x
  unfold iblk
  rw [View.read_apply]
  show V m c main_arg6 _ = m ((c : Thread nD τ).loc main_arg6) x
  unfold V
  congr 1
  funext a
  apply Fin.ext
  match a with
  | ⟨0, _⟩ => show win0_7.index t (0 : Fin 2) * 256 + 1 * (x 0).val = (x 0).val; rw [e0]; omega
  | ⟨1, _⟩ => show win0_7.index t (1 : Fin 2) * 128 + 1 * (x 1).val = (x 1).val; rw [e1]; omega

theorem whole_8 (c : Dev nD) (t : Fin cfg0.N) : iblk m c 8 t = (m ((c : Thread nD τ).loc main_arg7)) := by
  have e0 := idx8 t
  funext x
  unfold iblk
  rw [View.read_apply]
  show V m c main_arg7 _ = m ((c : Thread nD τ).loc main_arg7) x
  unfold V
  congr 1
  funext a
  apply Fin.ext
  match a with
  | ⟨0, _⟩ => show win0_8.index t (0 : Fin 1) * 128 + 1 * (x 0).val = (x 0).val; rw [e0]; omega

theorem whole_9 (c : Dev nD) (t : Fin cfg0.N) : iblk m c 9 t = (m ((c : Thread nD τ).loc main_arg8)) := by
  have e0 := idx9 t
  funext x
  unfold iblk
  rw [View.read_apply]
  show V m c main_arg8 _ = m ((c : Thread nD τ).loc main_arg8) x
  unfold V
  congr 1
  funext a
  apply Fin.ext
  match a with
  | ⟨0, _⟩ => show win0_9.index t (0 : Fin 1) * 128 + 1 * (x 0).val = (x 0).val; rw [e0]; omega

theorem whole_10 (c : Dev nD) (t : Fin cfg0.N) : iblk m c 10 t = (m ((c : Thread nD τ).loc main_arg9)) := by
  have e0 := idx10 t
  funext x
  unfold iblk
  rw [View.read_apply]
  show V m c main_arg9 _ = m ((c : Thread nD τ).loc main_arg9) x
  unfold V
  congr 1
  funext a
  apply Fin.ext
  match a with
  | ⟨0, _⟩ => show win0_10.index t (0 : Fin 1) * 128 + 1 * (x 0).val = (x 0).val; rw [e0]; omega

/-! ## The output window: rows 512·(t / 4) … of the result array, written back where t % 4 = 3 -/

/-- An index of the result array is in point t's block iff each coordinate is in the block's range on its axis. -/
theorem out_mem_blk (t : Fin cfg0.N) (i : S16384x128.Idx) :
    i ∈ ((cfg0.win 11).blk t).view.set ↔ ∀ a : Fin 2, win0_11.index t a * S512x128.size a ≤ (i a).val ∧ (i a).val < win0_11.index t a * S512x128.size a + S512x128.size a := by
  show i ∈ ((View.whole main_v0).slice (win0_11.rect t)).set ↔ _
  rw [View.set_slice_whole, Rect.mem_set_unit]
  exact Iff.rfl

/-- An index (r, j) of the result array is in point t's block iff row r is in row block t / 4. -/
theorem out_rows_at (t : Fin cfg0.N) (i : S16384x128.Idx) :
    i ∈ ((cfg0.win 11).blk t).view.set ↔ (i 0).val / 512 = t.val / 4 := by
  obtain ⟨e0, e1⟩ := idx11 t
  have hi0 : (i 0).val < 16384 := (i 0).isLt
  have hi1 : (i 1).val < 128 := (i 1).isLt
  rw [out_mem_blk]
  constructor
  · intro h
    have b0 : win0_11.index t (0 : Fin 2) * 512 ≤ (i 0).val ∧ (i 0).val < win0_11.index t (0 : Fin 2) * 512 + 512 := h 0
    omega
  · intro h a
    match a with
    | ⟨0, _⟩ => show win0_11.index t (0 : Fin 2) * 512 ≤ (i 0).val ∧ (i 0).val < win0_11.index t (0 : Fin 2) * 512 + 512; omega
    | ⟨1, _⟩ => show win0_11.index t (1 : Fin 2) * 128 ≤ (i 1).val ∧ (i 1).val < win0_11.index t (1 : Fin 2) * 128 + 128; omega

/-- Element (p, j) of point t's block is element (512·(t / 4) + p, j) of the result array. -/
theorem out_emb (t : Fin cfg0.N) (y : ((cfg0.win 11).xblock (cfg0.grid.coords t)).Idx) (i : S16384x128.Idx)
    (h0 : (i 0).val = 512 * (t.val / 4) + (y 0).val) (h1 : (i 1).val = (y 1).val) :
    ((cfg0.win 11).blk t).view.emb y = i := by
  obtain ⟨e0, e1⟩ := idx11 t
  funext a
  apply Fin.ext
  match a with
  | ⟨0, _⟩ => show win0_11.index t (0 : Fin 2) * 512 + 1 * (y 0).val = (i 0).val; rw [e0, h0]; omega
  | ⟨1, _⟩ => show win0_11.index t (1 : Fin 2) * 128 + 1 * (y 1).val = (i 1).val; rw [e1, h1]; omega

/-- The local index of (r, j) in the block that holds it is (r % 512, j). -/
theorem out_emb_mod (t : Fin cfg0.N) (i : S16384x128.Idx) (hi : (i 0).val / 512 = t.val / 4) :
    ((cfg0.win 11).blk t).view.emb (ValueIdx.ix2 (⟨(i 0).val % 512, Nat.mod_lt _ (by decide)⟩ : Fin 512) (i 1)) = i :=
  out_emb t _ i (by show (i 0).val = 512 * (t.val / 4) + (i 0).val % 512; omega) rfl

/-- Every index of the result array is in the block of a point that writes back: the last point of its row block. -/
theorem out_cover (i : S16384x128.Idx) :
    ∃ t : Fin cfg0.N, (cfg0.win 11).flush t = true ∧ i ∈ ((cfg0.win 11).blk t).view.set := by
  have hi0 : (i 0).val < 16384 := (i 0).isLt
  have hN : cfg0.N = 128 := N_0
  refine ⟨⟨4 * ((i 0).val / 512) + 3, by rw [hN]; omega⟩, (flush0_11 _).mpr ?_, (out_rows_at _ i).mpr ?_⟩
  · show (4 * ((i 0).val / 512) + 3) % 4 = 3; omega
  · show (i 0).val / 512 = (4 * ((i 0).val / 512) + 3) / 4; omega

/-- A whole-array function read through point t's block is its rows 512·(t / 4) …. -/
theorem out_read_rows (t : Fin cfg0.N) (G : S16384x128.Idx → Elt F .f32) :
    IsRows 512 (t.val / 4) G (((cfg0.win 11).blk t).view.read (Elt F) G) := by
  intro p j r hr
  rw [View.read_apply]
  show G _ = G _
  congr 1
  exact out_emb t _ _ hr rfl

/-- So a block that is rows 512·(t / 4) … of G is G read through point t's block. -/
theorem out_read_eq_of_rows (t : Fin cfg0.N) (G : S16384x128.Idx → Elt F .f32) (b : S512x128.Idx → Elt F .f32)
    (H : IsRows 512 (t.val / 4) G b) : ((cfg0.win 11).blk t).view.read (Elt F) G = b := by
  funext y
  have hy0 : (y 0).val < 512 := (y 0).isLt
  have ht : t.val < 128 := by have h := t.isLt; have hN : cfg0.N = 128 := N_0; omega
  have e : y = ValueIdx.ix2 (y 0) (y 1) := ValueIdx.eq_ix2 y
  rw [e]
  exact (out_read_rows t G (y 0) (y 1) ⟨512 * (t.val / 4) + (y 0).val, by omega⟩ rfl).trans
    (H (y 0) (y 1) ⟨512 * (t.val / 4) + (y 0).val, by omega⟩ rfl).symm

/-- The result array after the run is G once every point that writes back wrote rows 512·(t / 4) … of G. -/
theorem out_final (c : Dev nD) (dat : Dat τ (Elt F) Unit ℕ (UR sig nD τ) ℕ cfg0 c) (G : S16384x128.Idx → Elt F .f32)
    (H : ∀ t : Fin cfg0.N, t.val % 4 = 3 → IsRows 512 (t.val / 4) G (dat.flushed 11 t)) :
    dat.arrAt 11 cfg0.N = G :=
  dat.arrAt_eq_of_cover 11 G (fun t hf => (out_read_eq_of_rows t G _ (H t ((flush0_11 t).mp hf))).symm) out_cover

end Cert.KernelIdeal.Fr

end
-- ==== Proof.Spec.lean ====
/-
  What both programs compute, as one function of the ten argument arrays over the extended reals: a graph layer that
  adds a linear map of each node's own features to a linear map of the mean of its neighbours' features, mixes the two
  by a third linear map, normalises each row to mean zero and unit variance, scales and shifts it, and clips at zero.

  With `x` the node features (16384 rows of 128), `adj` the dense adjacency weights, and row `r`:
    degree r      = max 1 (∑ c, adj r c)
    neighMean r d = (∑ c, adj r c * x c d) / degree r
    selfFeat      = x · selfW + selfB          neighFeat = neighMean · neighW + neighB
    hidden        = [selfFeat | neighFeat] · combW + combB
    mean r        = (∑ d, hidden r d) / 128    var r = (∑ d, (hidden r d - mean r)²) / 128
    out r d       = max ((hidden r d - mean r) * (var r + ε)^(-1/2) * γ d + β d) 0
  Each stage is spelt with the host operation the reference program applies, so that the reference's run ends at
  `out` by unfolding, and the kernel's row blocks are compared against the same stages.
-/
import proofs.«153857_j5291399708711_1_alg».proof.ReferenceIdeal
import Idealize.ShloMosaic.PureOps.Ideal

noncomputable section

namespace Cert.Spec

open Idealize.ShloMosaic Cert.ReferenceIdeal Cert.ReferenceIdeal.Facts₀

variable [Cert.ReferenceIdeal.Facts]

/-- A row of 128 entries repeated on every one of the 16384 rows. -/
def biasRows (b : FVec Ideal S128 .f32) : FVec Ideal S16384x128 .f32 :=
  broadcastInDim S16384x128 ![0, 1] bcast_S1x128_S16384x128_0_1 (broadcastInDim S1x128 ![1] bcast_S128_S1x128_1 b)

/-- A column of 16384 entries repeated on every one of the 128 columns. -/
def cols (v : FVec Ideal S16384x1 .f32) : FVec Ideal S16384x128 .f32 :=
  broadcastInDim S16384x128 ![0, 1] bcast_S16384x1_S16384x128_0_1 v

/-- A scalar constant as a column of 16384 equal entries. -/
def constCol (w : BitVec 32) : FVec Ideal S16384x1 .f32 :=
  broadcastInDim S16384x1 ![] bcast_S_S16384x1 (constant S_ .f32 w)

/-- The sum of each row of a 16384 × 128 matrix, as a column. -/
def rowSum (h : FVec Ideal S16384x128 .f32) : FVec Ideal S16384x1 .f32 :=
  broadcastInDim S16384x1 ![0] bcast_S16384_S16384x1_0
    (Host.reduceAdd h (constant S_ .f32 0x00000000#32) reducesTo_S16384x128_S16384_d1 h_S_)

/-- The mean of each row: its sum over 128. -/
def rowMean (h : FVec Ideal S16384x128 .f32) : FVec Ideal S16384x1 .f32 :=
  Host.divf (rowSum h) (constCol 0x43000000#32)

/-- x · selfW + selfB. -/
def selfFeat (x : FVec Ideal S16384x128 .f32) (sW : FVec Ideal S128x128 .f32) (sb : FVec Ideal S128 .f32) :
    FVec Ideal S16384x128 .f32 :=
  addf (Host.dotGeneral dot_S16384x128_S128x128_S16384x128_1_0_0_1_n_n none x sW) (biasRows sb)

/-- adj · x: the weighted sum of the neighbours' features. -/
def neighSum (adj : FVec Ideal S16384x16384 .f32) (x : FVec Ideal S16384x128 .f32) : FVec Ideal S16384x128 .f32 :=
  Host.dotGeneral dot_S16384x16384_S16384x128_S16384x128_1_0_0_1_n_n none adj x

/-- The sum of each row of adj, as a column. -/
def degree (adj : FVec Ideal S16384x16384 .f32) : FVec Ideal S16384x1 .f32 :=
  broadcastInDim S16384x1 ![0] bcast_S16384_S16384x1_0
    (Host.reduceAdd adj (constant S_ .f32 0x00000000#32) reducesTo_S16384x16384_S16384_d1 h_S_)

/-- The degree, at least 1. -/
def degreeClamped (adj : FVec Ideal S16384x16384 .f32) : FVec Ideal S16384x1 .f32 :=
  maximumf (constCol 0x3F800000#32) (degree adj)

/-- The neighbours' weighted sum over the clamped degree. -/
def neighMean (adj : FVec Ideal S16384x16384 .f32) (x : FVec Ideal S16384x128 .f32) : FVec Ideal S16384x128 .f32 :=
  Host.divf (neighSum adj x) (cols (degreeClamped adj))

/-- neighMean · neighW + neighB. -/
def neighFeat (adj : FVec Ideal S16384x16384 .f32) (x : FVec Ideal S16384x128 .f32) (nW : FVec Ideal S128x128 .f32)
    (nb : FVec Ideal S128 .f32) : FVec Ideal S16384x128 .f32 :=
  addf (Host.dotGeneral dot_S16384x128_S128x128_S16384x128_1_0_0_1_n_n none (neighMean adj x) nW) (biasRows nb)

/-- The two feature matrices side by side: 256 columns. -/
def combined (x : FVec Ideal S16384x128 .f32) (adj : FVec Ideal S16384x16384 .f32) (sW : FVec Ideal S128x128 .f32)
    (sb : FVec Ideal S128 .f32) (nW : FVec Ideal S128x128 .f32) (nb : FVec Ideal S128 .f32) : FVec Ideal S16384x256 .f32 :=
  concatenate S16384x256 1 [⟨S16384x128, selfFeat x sW sb⟩, ⟨S16384x128, neighFeat adj x nW nb⟩]
    concatenates_S16384x128_S16384x128_S16384x256_d1

/-- combined · combW + combB. -/
def hidden (x : FVec Ideal S16384x128 .f32) (adj : FVec Ideal S16384x16384 .f32) (sW : FVec Ideal S128x128 .f32)
    (sb : FVec Ideal S128 .f32) (nW : FVec Ideal S128x128 .f32) (nb : FVec Ideal S128 .f32) (cW : FVec Ideal S256x128 .f32)
    (cb : FVec Ideal S128 .f32) : FVec Ideal S16384x128 .f32 :=
  addf (Host.dotGeneral dot_S16384x256_S256x128_S16384x128_1_0_0_1_n_n none (combined x adj sW sb nW nb) cW) (biasRows cb)

/-- A matrix less its row means. -/
def centred (h : FVec Ideal S16384x128 .f32) : FVec Ideal S16384x128 .f32 := subf h (cols (rowMean h))

/-- The mean of the squared deviations of each row. -/
def rowVar (h : FVec Ideal S16384x128 .f32) : FVec Ideal S16384x1 .f32 := rowMean (mulf (centred h) (centred h))

/-- Row-normalise, scale by γ, shift by β, clip at zero. -/
def normRelu (h : FVec Ideal S16384x128 .f32) (g b : FVec Ideal S128 .f32) : FVec Ideal S16384x128 .f32 :=
  maximumf
    (addf (mulf (mulf (centred h) (cols (Host.rsqrt (addf (rowVar h) (constCol 0x3727C5AC#32))))) (biasRows g)) (biasRows b))
    (broadcastInDim S16384x128 ![] bcast_S_S16384x128 (constant S_ .f32 0x00000000#32))

/-- The layer's result. -/
def out (x : FVec Ideal S16384x128 .f32) (adj : FVec Ideal S16384x16384 .f32) (sW : FVec Ideal S128x128 .f32)
    (sb : FVec Ideal S128 .f32) (nW : FVec Ideal S128x128 .f32) (nb : FVec Ideal S128 .f32) (cW : FVec Ideal S256x128 .f32)
    (cb : FVec Ideal S128 .f32) (g b : FVec Ideal S128 .f32) : FVec Ideal S16384x128 .f32 :=
  normRelu (hidden x adj sW sb nW nb cW cb) g b

end Cert.Spec

end
-- ==== Proof.LibStats.lean ====
/-
  Pure mathematics on the extended reals, used from both programs' sides.

  (1) "Is a real": an extended real that is neither infinity, and the operations of one layer
      that keep a value real: sum, difference, product, quotient by a nonzero real, maximum,
      the reciprocal square root of a positive real, and finite sums.
  (2) The batch statistics over a finite index type of N elements: for real entries the
      one-pass variance  max (Σx²/N − (Σx/N)², 0)  is the two-pass variance  Σ(x − mean)²/N,
      which is a nonnegative real; adding a positive real to it gives a positive real.
  (3) Re-indexing a sum over Fin (a·b) as a double sum over Fin a × Fin b, the pair (t, r)
      standing for the index b·t + r.
-/
import Idealize.ShloMosaic.PureOps.Ideal
import Idealize.ShloMosaic.PureOps.Ideal.Laws
import Mathlib.Data.EReal.Inv
import Mathlib.Data.Fintype.BigOperators
import Mathlib.Logic.Equiv.Fin.Basic

noncomputable section

namespace Cert.Hand.LibStats

open Idealize.ShloMosaic
open scoped BigOperators

/-! ## Real values among the extended reals -/

/-- An extended real that is a real number. -/
def IsReal (x : EReal) : Prop := ∃ r : ℝ, x = (r : EReal)

theorem isReal_coe (r : ℝ) : IsReal (r : EReal) := ⟨r, rfl⟩
theorem isReal_zero : IsReal 0 := ⟨0, EReal.coe_zero.symm⟩
theorem isReal_one : IsReal 1 := ⟨1, EReal.coe_one.symm⟩
theorem isReal_iff {x : EReal} : IsReal x ↔ x ≠ ⊥ ∧ x ≠ ⊤ := by
  constructor
  · rintro ⟨r, rfl⟩
    exact ⟨EReal.coe_ne_bot r, EReal.coe_ne_top r⟩
  · rintro ⟨hb, ht⟩
    induction x using EReal.rec with
    | bot => exact absurd rfl hb
    | top => exact absurd rfl ht
    | coe r => exact ⟨r, rfl⟩
theorem IsReal.ne_bot {x : EReal} (hx : IsReal x) : x ≠ ⊥ := (isReal_iff.mp hx).1
theorem IsReal.ne_top {x : EReal} (hx : IsReal x) : x ≠ ⊤ := (isReal_iff.mp hx).2

theorem IsReal.add {x y : EReal} (hx : IsReal x) (hy : IsReal y) : IsReal (x + y) := by
  obtain ⟨a, rfl⟩ := hx; obtain ⟨b, rfl⟩ := hy
  exact ⟨a + b, (EReal.coe_add a b).symm⟩
theorem IsReal.sub {x y : EReal} (hx : IsReal x) (hy : IsReal y) : IsReal (x - y) := by
  obtain ⟨a, rfl⟩ := hx; obtain ⟨b, rfl⟩ := hy
  exact ⟨a - b, (EReal.coe_sub a b).symm⟩
theorem IsReal.mul {x y : EReal} (hx : IsReal x) (hy : IsReal y) : IsReal (x * y) := by
  obtain ⟨a, rfl⟩ := hx; obtain ⟨b, rfl⟩ := hy
  exact ⟨a * b, (EReal.coe_mul a b).symm⟩
theorem IsReal.neg {x : EReal} (hx : IsReal x) : IsReal (-x) := by
  obtain ⟨a, rfl⟩ := hx
  exact ⟨-a, (EReal.coe_neg a).symm⟩
theorem IsReal.max {x y : EReal} (hx : IsReal x) (hy : IsReal y) : IsReal (max x y) := by
  rcases le_total x y with h | h
  · rw [max_eq_right h]; exact hy
  · rw [max_eq_left h]; exact hx
theorem IsReal.max_zero {x : EReal} (hx : IsReal x) : IsReal (Max.max x 0) := hx.max isReal_zero

/-- The quotient of two reals, the divisor not zero, is the real quotient. -/
theorem div_coe_coe (a c : ℝ) (hc : c ≠ 0) : Ideal.div (a : EReal) (c : EReal) = ((a / c : ℝ) : EReal) := by
  rw [Ideal.div_coe hc, ← EReal.coe_mul, mul_one_div]
theorem IsReal.div {x y : EReal} (hx : IsReal x) (hy : IsReal y) (h0 : y ≠ 0) : IsReal (Ideal.div x y) := by
  obtain ⟨a, rfl⟩ := hx; obtain ⟨b, rfl⟩ := hy
  have hb : b ≠ 0 := by rintro rfl; exact h0 EReal.coe_zero
  exact ⟨a / b, div_coe_coe a b hb⟩
theorem IsReal.div_coe {x : EReal} (hx : IsReal x) {c : ℝ} (hc : c ≠ 0) : IsReal (Ideal.div x (c : EReal)) := by
  obtain ⟨a, rfl⟩ := hx
  exact ⟨a / c, div_coe_coe a c hc⟩

/-- The reciprocal square root of a positive real r is the real (√r)⁻¹, which is positive. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']
theorem rsqrt_pos_real {r : ℝ} (hr : 0 < r) : ∃ s : ℝ, 0 < s ∧ Ideal.rsqrt (r : EReal) = (s : EReal) :=
  ⟨(Real.sqrt r)⁻¹, inv_pos.mpr (Real.sqrt_pos.mpr hr), rsqrt_coe_pos hr⟩
theorem IsReal.rsqrt_pos {x : EReal} (hx : IsReal x) (h : 0 < x) : IsReal (Ideal.rsqrt x) := by
  obtain ⟨r, rfl⟩ := hx
  exact ⟨_, rsqrt_coe_pos (EReal.coe_pos.mp h)⟩

/-- The coercion of a finite real sum is the sum of the coercions. -/
theorem coe_sum {ι : Type*} (s : Finset ι) (f : ι → ℝ) : ((∑ i ∈ s, f i : ℝ) : EReal) = ∑ i ∈ s, (f i : EReal) := by
  classical
  refine Finset.induction_on s ?_ ?_
  · rw [Finset.sum_empty, Finset.sum_empty]; rfl
  · intro a s ha ih
    rw [Finset.sum_insert ha, Finset.sum_insert ha, EReal.coe_add, ih]
theorem IsReal.sum {ι : Type*} (s : Finset ι) (f : ι → EReal) (h : ∀ i ∈ s, IsReal (f i)) : IsReal (∑ i ∈ s, f i) := by
  classical
  revert h
  refine Finset.induction_on s ?_ ?_
  · intro _; rw [Finset.sum_empty]; exact isReal_zero
  · intro a s ha ih h
    rw [Finset.sum_insert ha]
    exact (h a (Finset.mem_insert_self a s)).add (ih fun i hi => h i (Finset.mem_insert_of_mem hi))
theorem IsReal.sum_univ {ι : Type*} [Fintype ι] (f : ι → EReal) (h : ∀ i, IsReal (f i)) : IsReal (∑ i, f i) :=
  IsReal.sum _ f fun i _ => h i

/-! The same closure facts over the float operations read at the exact instance. -/

theorem IsReal.addf {φ : FTy} {x y : Ideal φ} (hx : IsReal x) (hy : IsReal y) : IsReal (FloatOps.addf x y) := hx.add hy
theorem IsReal.subf {φ : FTy} {x y : Ideal φ} (hx : IsReal x) (hy : IsReal y) : IsReal (FloatOps.subf x y) := hx.sub hy
theorem IsReal.mulf {φ : FTy} {x y : Ideal φ} (hx : IsReal x) (hy : IsReal y) : IsReal (FloatOps.mulf x y) := hx.mul hy
theorem IsReal.maximumf {φ : FTy} {x y : Ideal φ} (hx : IsReal x) (hy : IsReal y) : IsReal (FloatOps.maximumf x y) := hx.max hy
theorem IsReal.divf {φ : FTy} {x y : Ideal φ} (hx : IsReal x) (hy : IsReal y) (h0 : y ≠ 0) : IsReal (FloatOps.divf x y) := hx.div hy h0
theorem IsReal.hostDivf {φ : FTy} {x y : Ideal φ} (hx : IsReal x) (hy : IsReal y) (h0 : y ≠ 0) : IsReal (FloatOps.hostDivf x y) := hx.div hy h0
theorem IsReal.rsqrtf {φ : FTy} {x : Ideal φ} (hx : IsReal x) (h : (0 : EReal) < x) : IsReal (FloatOps.rsqrt x) := hx.rsqrt_pos h

/-! ## The batch statistics -/

section Stats

variable {ι : Type*} [Fintype ι]

/-- Over the reals: with N the number of indices, the mean of the squares less the square of the mean is
    the mean of the squared deviations. Expanding the square, the cross term is 2 · mean · Σx = 2 · N · mean²
    and the constant term sums to N · mean². -/
theorem real_batch_var (N : ℝ) (hN : (Fintype.card ι : ℝ) = N) (hN0 : N ≠ 0) (r : ι → ℝ) :
    (∑ i, r i * r i) / N - (∑ i, r i) / N * ((∑ i, r i) / N)
      = (∑ i, (r i - (∑ i, r i) / N) * (r i - (∑ i, r i) / N)) / N := by
  have h1 : ∀ m : ℝ, ∑ i, (r i - m) * (r i - m) = (∑ i, r i * r i) - 2 * m * (∑ i, r i) + N * (m * m) := by
    intro m
    have h2 : ∀ i, (r i - m) * (r i - m) = r i * r i - 2 * m * r i + m * m := fun i => by ring
    simp only [h2]
    rw [Finset.sum_add_distrib, Finset.sum_sub_distrib, ← Finset.mul_sum, Finset.sum_const, Finset.card_univ,
      nsmul_eq_mul, hN]
  rw [h1]
  field_simp
  ring

/-- The number of indices, not zero, is positive. -/
theorem card_pos_of_ne (N : ℝ) (hN : (Fintype.card ι : ℝ) = N) (hN0 : N ≠ 0) : 0 < N :=
  lt_of_le_of_ne (hN ▸ Nat.cast_nonneg _) hN0.symm

/-- Over the reals the mean of the squared deviations is not negative. -/
theorem real_var_nonneg (N : ℝ) (hN : (Fintype.card ι : ℝ) = N) (hN0 : N ≠ 0) (r : ι → ℝ) (m : ℝ) :
    0 ≤ (∑ i, (r i - m) * (r i - m)) / N :=
  div_nonneg (Finset.sum_nonneg fun i _ => mul_self_nonneg _) (card_pos_of_ne N hN hN0).le

/-- The mean of real entries, as the real quotient. -/
theorem mean_coe (Nr : ℝ) (hN0 : Nr ≠ 0) (r : ι → ℝ) :
    Ideal.div (∑ i, (r i : EReal)) (Nr : EReal) = (((∑ i, r i) / Nr : ℝ) : EReal) := by
  rw [← coe_sum, div_coe_coe _ _ hN0]

/-- The mean of the squared deviations of real entries, as a real. -/
theorem var2_coe (Nr : ℝ) (hN0 : Nr ≠ 0) (r : ι → ℝ) :
    Ideal.div (∑ i, ((r i : EReal) - Ideal.div (∑ i, (r i : EReal)) (Nr : EReal))
        * ((r i : EReal) - Ideal.div (∑ i, (r i : EReal)) (Nr : EReal))) (Nr : EReal)
      = (((∑ i, (r i - (∑ i, r i) / Nr) * (r i - (∑ i, r i) / Nr)) / Nr : ℝ) : EReal) := by
  rw [mean_coe Nr hN0 r]
  simp only [← EReal.coe_sub, ← EReal.coe_mul]
  rw [← coe_sum, div_coe_coe _ _ hN0]

/-- The mean of real entries is real. -/
theorem isReal_mean (Nr : ℝ) (hN0 : Nr ≠ 0) (x : ι → EReal) (hx : ∀ i, IsReal (x i)) :
    IsReal (Ideal.div (∑ i, x i) (Nr : EReal)) :=
  (IsReal.sum_univ x hx).div_coe hN0

/-- One pass against two: for real entries over an index type of Nr elements, the mean of the squares
    less the square of the mean, cut off below at zero, is the mean of the squared deviations. -/
theorem batch_var (Nr : ℝ) (hN : (Fintype.card ι : ℝ) = Nr) (hN0 : Nr ≠ 0) (x : ι → EReal) (hx : ∀ i, IsReal (x i)) :
    max (Ideal.div (∑ i, x i * x i) (Nr : EReal)
          - Ideal.div (∑ i, x i) (Nr : EReal) * Ideal.div (∑ i, x i) (Nr : EReal)) 0
      = Ideal.div (∑ i, (x i - Ideal.div (∑ i, x i) (Nr : EReal)) * (x i - Ideal.div (∑ i, x i) (Nr : EReal))) (Nr : EReal) := by
  choose r hr using hx
  simp only [hr]
  have hsq : Ideal.div (∑ i, (r i : EReal) * (r i : EReal)) (Nr : EReal) = (((∑ i, r i * r i) / Nr : ℝ) : EReal) := by
    simp only [← EReal.coe_mul]
    rw [← coe_sum, div_coe_coe _ _ hN0]
  rw [var2_coe Nr hN0 r, mean_coe Nr hN0 r, hsq, ← EReal.coe_mul, ← EReal.coe_sub, real_batch_var Nr hN hN0 r]
  exact max_eq_left (EReal.coe_nonneg.mpr (real_var_nonneg Nr hN hN0 r _))

/-- The mean of the squared deviations is a nonnegative real. -/
theorem batch_var_nonneg (Nr : ℝ) (hN : (Fintype.card ι : ℝ) = Nr) (hN0 : Nr ≠ 0) (x : ι → EReal) (hx : ∀ i, IsReal (x i)) :
    ∃ v : ℝ, 0 ≤ v ∧
      Ideal.div (∑ i, (x i - Ideal.div (∑ i, x i) (Nr : EReal)) * (x i - Ideal.div (∑ i, x i) (Nr : EReal))) (Nr : EReal) = (v : EReal) := by
  choose r hr using hx
  simp only [hr]
  exact ⟨_, real_var_nonneg Nr hN hN0 r _, var2_coe Nr hN0 r⟩

/-- … and with a positive real added it is a positive real. -/
theorem batch_var_add_pos (Nr : ℝ) (hN : (Fintype.card ι : ℝ) = Nr) (hN0 : Nr ≠ 0) (x : ι → EReal) (hx : ∀ i, IsReal (x i))
    (e : ℝ) (he : 0 < e) :
    ∃ v : ℝ, 0 < v ∧
      Ideal.div (∑ i, (x i - Ideal.div (∑ i, x i) (Nr : EReal)) * (x i - Ideal.div (∑ i, x i) (Nr : EReal))) (Nr : EReal) + (e : EReal)
        = (v : EReal) := by
  obtain ⟨v, hv, h⟩ := batch_var_nonneg Nr hN hN0 x hx
  exact ⟨v + e, add_pos_of_nonneg_of_pos hv he, by rw [h, EReal.coe_add]⟩

/-- … so its reciprocal square root is a positive real. -/
theorem batch_rsqrt_real (Nr : ℝ) (hN : (Fintype.card ι : ℝ) = Nr) (hN0 : Nr ≠ 0) (x : ι → EReal) (hx : ∀ i, IsReal (x i))
    (e : ℝ) (he : 0 < e) :
    ∃ s : ℝ, 0 < s ∧
      Ideal.rsqrt (Ideal.div (∑ i, (x i - Ideal.div (∑ i, x i) (Nr : EReal)) * (x i - Ideal.div (∑ i, x i) (Nr : EReal))) (Nr : EReal)
          + (e : EReal)) = (s : EReal) := by
  obtain ⟨v, hv, h⟩ := batch_var_add_pos Nr hN hN0 x hx e he
  rw [h]
  exact rsqrt_pos_real hv

end Stats

/-! ## Sums over Fin (a * b) as double sums -/

section Reindex

/-- The pair (t, r) stands for the index b * t + r of Fin n, n = a * b. -/
def finProdEquiv (a b n : ℕ) (h : a * b = n) : Fin a × Fin b ≃ Fin n := finProdFinEquiv.trans (finCongr h)

theorem finProdEquiv_val (a b n : ℕ) (h : a * b = n) (t : Fin a) (r : Fin b) :
    (finProdEquiv a b n h (t, r)).val = b * t.val + r.val := by
  show r.val + b * t.val = b * t.val + r.val
  exact Nat.add_comm _ _
theorem finProdEquiv_symm_fst_val (a b n : ℕ) (h : a * b = n) (k : Fin n) :
    ((finProdEquiv a b n h).symm k).1.val = k.val / b := rfl
theorem finProdEquiv_symm_snd_val (a b n : ℕ) (h : a * b = n) (k : Fin n) :
    ((finProdEquiv a b n h).symm k).2.val = k.val % b := rfl

variable {M : Type*} [AddCommMonoid M]

theorem sum_finProd (a b n : ℕ) (h : a * b = n) (f : Fin n → M) :
    ∑ p : Fin a × Fin b, f (finProdEquiv a b n h p) = ∑ k : Fin n, f k :=
  Equiv.sum_comp (finProdEquiv a b n h) f
theorem sum_sum_finProd (a b n : ℕ) (h : a * b = n) (f : Fin n → M) :
    ∑ t : Fin a, ∑ r : Fin b, f (finProdEquiv a b n h (t, r)) = ∑ k : Fin n, f k := by
  rw [← sum_finProd a b n h f, Fintype.sum_prod_type]
/-- The same for a sum restricted by a predicate. -/
theorem sum_filter_finProd (a b n : ℕ) (h : a * b = n) (P : Fin n → Prop) [DecidablePred P] (f : Fin n → M) :
    ∑ t : Fin a, ∑ r ∈ Finset.univ.filter (fun r : Fin b => P (finProdEquiv a b n h (t, r))), f (finProdEquiv a b n h (t, r))
      = ∑ k ∈ Finset.univ.filter P, f k := by
  rw [Finset.sum_filter, ← sum_sum_finProd a b n h fun k => if P k then f k else 0]
  exact Finset.sum_congr rfl fun t _ => Finset.sum_filter _ _

/-- Ten blocks of 5000 rows: the pair (t, r) is row 5000 * t + r of 50000. -/
abbrev rowsEquiv : Fin 10 × Fin 5000 ≃ Fin 50000 := finProdEquiv 10 5000 50000 (by norm_num)
/-- Eight chunks of 200000 edges: the pair (c, e) is edge 200000 * c + e of 1600000. -/
abbrev edgesEquiv : Fin 8 × Fin 200000 ≃ Fin 1600000 := finProdEquiv 8 200000 1600000 (by norm_num)

theorem rowsEquiv_val (t : Fin 10) (r : Fin 5000) : (rowsEquiv (t, r)).val = 5000 * t.val + r.val :=
  finProdEquiv_val 10 5000 50000 _ t r
theorem edgesEquiv_val (c : Fin 8) (e : Fin 200000) : (edgesEquiv (c, e)).val = 200000 * c.val + e.val :=
  finProdEquiv_val 8 200000 1600000 _ c e
theorem sum_rows (f : Fin 50000 → M) : ∑ t : Fin 10, ∑ r : Fin 5000, f (rowsEquiv (t, r)) = ∑ k : Fin 50000, f k :=
  sum_sum_finProd 10 5000 50000 _ f
theorem sum_edges (f : Fin 1600000 → M) : ∑ c : Fin 8, ∑ e : Fin 200000, f (edgesEquiv (c, e)) = ∑ k : Fin 1600000, f k :=
  sum_sum_finProd 8 200000 1600000 _ f

end Reindex

end Cert.Hand.LibStats

end
-- ==== Proof.RowsAcc.lean ====
/-
  The two accumulators over the four column blocks of one row block. Starting from zero and adding, block after
  block, the row sums of the adjacency block and its product with the matching 4096 rows of x, leaves the row sums
  of the whole 16384 columns and the product with the whole of x: a sum over 16384 indices regrouped as four sums
  over 4096, which needs only that addition of extended reals is commutative and associative.
-/
import proofs.«153857_j5291399708711_1_alg».proof.Proof.Spec
import proofs.«153857_j5291399708711_1_alg».proof.Proof.Blocks
import proofs.«153857_j5291399708711_1_alg».proof.Proof.LibStats
import proofs.«153857_j5291399708711_1_alg».proof.Proof.Gen.KernelIdeal.Skeleton
import proofs.«153857_j5291399708711_1_alg».proof.Proof.Gen.ReferenceIdeal

noncomputable section

namespace Cert.RowsAcc

open Idealize.ShloMosaic Idealize.ShloMosaic.ValueIdx Cert.RowBlock Cert.Blocks
open Cert.KernelIdeal (S512x4096 S4096x128 S512x128 S512x1)
open Cert.ReferenceIdeal (S16384x128 S16384x16384)

open Cert.Hand.LibStats (finProdEquiv finProdEquiv_val sum_sum_finProd)

/-! ## Regrouping a sum over 16384 indices as four sums over 4096 -/

/-- Four partial sums added one after the other to zero are the whole sum, when block k's q-th term is the term of
    index 4096·k + q. Only associativity of the addition and the neutral zero are used. -/
theorem sum_four_blocks (f : Fin 16384 → EReal) (g : Fin 4 → Fin 4096 → EReal)
    (h : ∀ (k : Fin 4) (q : Fin 4096) (c : Fin 16384), c.val = 4096 * k.val + q.val → g k q = f c) :
    (((0 + ∑ q : Fin 4096, g 0 q) + ∑ q : Fin 4096, g 1 q) + ∑ q : Fin 4096, g 2 q) + ∑ q : Fin 4096, g 3 q
      = ∑ c : Fin 16384, f c := by
  have h16 : 4 * 4096 = 16384 := by norm_num
  have hk : ∀ k : Fin 4, ∑ q : Fin 4096, g k q = ∑ q : Fin 4096, f (finProdEquiv 4 4096 16384 h16 (k, q)) := fun k =>
    Finset.sum_congr rfl fun q _ => h k q _ (finProdEquiv_val 4 4096 16384 h16 k q)
  rw [← sum_sum_finProd 4 4096 16384 h16 f, Fin.sum_univ_four, zero_add, hk 0, hk 1, hk 2, hk 3]

/-! ## The kernel's steps at an entry -/

/-- The reset value of the product accumulator is zero everywhere. -/
theorem pay1_apply (p : Fin 512) (j : Fin 128) : Cert.KernelIdeal.Gen.k0_pay1 (F := Ideal) (ix2 p j) = 0 := by
  unfold Cert.KernelIdeal.Gen.k0_pay1
  rw [shapeCast_self]
  exact Ideal.ofBits_zero_f32

/-- The reset value of the row-sum accumulator is zero everywhere. -/
theorem pay2_apply (p : Fin 512) (u : Fin 1) : Cert.KernelIdeal.Gen.k0_pay2 (F := Ideal) (ix2 p u) = 0 := by
  unfold Cert.KernelIdeal.Gen.k0_pay2
  rw [shapeCast_self]
  exact Ideal.ofBits_zero_f32

/-- One product step at entry (p, j): the old entry plus the sum over the block's 4096 columns. -/
theorem pay4_apply (A : FVec Ideal S512x4096 .f32) (X : FVec Ideal S4096x128 .f32) (acc : FVec Ideal S512x128 .f32)
    (p : Fin 512) (j : Fin 128) :
    Cert.KernelIdeal.Gen.k0_pay4 (F := Ideal) A X acc (ix2 p j)
      = acc (ix2 p j) + ∑ q : Fin 4096, A (ix2 p q) * X (ix2 q j) := by
  unfold Cert.KernelIdeal.Gen.k0_pay4
  rw [shapeCast_self, addf_apply]
  simp only [matmul]
  rw [Ideal.matmul_constant_zero_apply, IsRows.dot_plain_sum _ ⟨rfl, rfl, rfl, rfl, rfl, rfl⟩]
  rfl

/-- A vector of 512 entries viewed as a column reads, at (p, u), its p-th entry. -/
theorem shapeCast_col_apply {α : Type} (v : (⟨1, ![512]⟩ : Shape).Idx → α)
    (h : (⟨1, ![512]⟩ : Shape).ShapeCasts ⟨2, ![512, 1]⟩) (p : Fin 512) (u : Fin 1) :
    shapeCast ⟨2, ![512, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- The sum of row p of a 512 × 4096 block over its 4096 columns. -/
theorem rowSum_block_apply (A : FVec Ideal S512x4096 .f32) (h : S512x4096.Reduces [1] Cert.KernelIdeal.S512)
    (hφ : FKind.Formats .f32) (hacc : (0x00000000#32 : BitVec 32) = FKind.add.neutral .f32 hφ) (p : Fin 512) :
    multiReduction (F := Ideal) .add [1] Cert.KernelIdeal.S512 A 0x00000000#32 h hφ hacc (ix1 p)
      = ∑ q : Fin 4096, A (ix2 p q) := by
  refine (Ideal.multiReduction_add_single A 0x00000000#32 h hφ hacc (ix1 p)).trans ?_
  refine Finset.sum_congr rfl fun q _ => congrArg A ?_
  exact Shape.idx_ext₂ rfl rfl

/-- One row-sum step at entry (p, u): the old entry plus the sum of row p of the block. -/
theorem pay3_apply (A : FVec Ideal S512x4096 .f32) (acc : FVec Ideal S512x1 .f32) (p : Fin 512) (u : Fin 1) :
    Cert.KernelIdeal.Gen.k0_pay3 (F := Ideal) A acc (ix2 p u) = acc (ix2 p u) + ∑ q : Fin 4096, A (ix2 p q) := by
  unfold Cert.KernelIdeal.Gen.k0_pay3
  rw [shapeCast_self, addf_apply]
  refine congrArg (acc (ix2 p u) + ·) ?_
  refine (shapeCast_col_apply _ _ p u).trans ?_
  exact rowSum_block_apply A _ _ _ p

/-! ## The reference's two arrays at an entry -/

/-- Entry (r, j) of adj · x is the sum over the 16384 columns of adj. -/
theorem neighSum_apply (adj : FVec Ideal S16384x16384 .f32) (x : FVec Ideal S16384x128 .f32) (r : Fin 16384) (j : Fin 128) :
    Cert.Spec.neighSum adj x (ix2 r j) = ∑ c : Fin 16384, adj (ix2 r c) * x (ix2 c j) := by
  unfold Cert.Spec.neighSum
  simp only [Host.dotGeneral]
  rw [Ideal.dotGeneral_apply, IsRows.dot_plain_sum _ ⟨rfl, rfl, rfl, rfl, rfl, rfl⟩]

/-- A vector of n entries, n not 1, broadcast to a column reads, at (r, u), its r-th entry. -/
theorem broadcastInDim_col_apply {α : Type} {n : Nat} (hn : n ≠ 1) (v : (⟨1, ![n]⟩ : Shape).Idx → α)
    (h : (⟨1, ![n]⟩ : Shape).BroadcastsInDim ⟨2, ![n, 1]⟩ ![0]) (r : Fin n) (u : Fin 1) :
    broadcastInDim ⟨2, ![n, 1]⟩ ![0] h v (ix2 r u) = v (ix1 r) :=
  broadcastInDim_apply ![0] h v (ix2 r u) (ix1 r) fun a => by
    match a with
    | ⟨0, _⟩ =>
      show r.val = if n = 1 then 0 else r.val
      rw [if_neg hn]

/-- The host's sum of row r of adj from the initial value zero. -/
theorem rowSum_adj_apply (adj : FVec Ideal S16384x16384 .f32)
    (h' : S16384x16384.ReducesTo [1] Cert.ReferenceIdeal.S16384) (hu : 0 < Cert.ReferenceIdeal.S_.numel) (r : Fin 16384) :
    Host.reduceAdd adj (constant (F := Ideal) Cert.ReferenceIdeal.S_ .f32 0x00000000#32) h' hu (ix1 r)
      = ∑ c : Fin 16384, adj (ix2 r c) := by
  have hred : S16384x16384.Reduces [1] Cert.ReferenceIdeal.S16384 := by decide
  show Ideal.hostReduceAdd h' adj _ (ix1 r) = _
  rw [Ideal.hostReduceAdd_single h' hred]
  show Ideal.ofBits .f32 0x00000000#32 + _ = _
  rw [Ideal.ofBits_zero_f32, zero_add]
  refine Finset.sum_congr rfl fun c _ => congrArg adj ?_
  exact Shape.idx_ext₂ rfl rfl

/-- Entry (r, u) of the degree column is the sum of row r of adj. -/
theorem degree_apply (adj : FVec Ideal S16384x16384 .f32) (r : Fin 16384) (u : Fin 1) :
    Cert.Spec.degree adj (ix2 r u) = ∑ c : Fin 16384, adj (ix2 r c) := by
  unfold Cert.Spec.degree
  refine (broadcastInDim_col_apply (by decide) _ _ r u).trans ?_
  exact rowSum_adj_apply adj _ _ r

/-! ## The two accumulators -/

/-- The neighbour sums of row block i: four products accumulated from zero are the rows of adj · x. -/
theorem nsum_rows (i : Nat) (adj : FVec Ideal S16384x16384 .f32) (x : FVec Ideal S16384x128 .f32)
    (a : Fin 4 → FVec Ideal S512x4096 .f32) (xk : Fin 4 → FVec Ideal S4096x128 .f32)
    (ha : ∀ k : Fin 4, IsAdjBlock i k.val adj (a k)) (hx : ∀ k : Fin 4, IsRows 4096 k.val x (xk k)) :
    IsRows 512 i (Cert.Spec.neighSum adj x)
      (Cert.KernelIdeal.Gen.k0_pay4 (F := Ideal) (a 3) (xk 3) (Cert.KernelIdeal.Gen.k0_pay4 (F := Ideal) (a 2) (xk 2)
        (Cert.KernelIdeal.Gen.k0_pay4 (F := Ideal) (a 1) (xk 1) (Cert.KernelIdeal.Gen.k0_pay4 (F := Ideal) (a 0) (xk 0)
          (Cert.KernelIdeal.Gen.k0_pay1 (F := Ideal)))))) := by
  intro p j r hr
  rw [pay4_apply, pay4_apply, pay4_apply, pay4_apply, pay1_apply, neighSum_apply]
  exact sum_four_blocks (fun c => adj (ix2 r c) * x (ix2 c j)) (fun k q => a k (ix2 p q) * xk k (ix2 q j))
    fun k q c hc => by
      show a k (ix2 p q) * xk k (ix2 q j) = adj (ix2 r c) * x (ix2 c j)
      rw [ha k p q r c hr hc, hx k q j c hc]

/-- The degrees of row block i: four row sums accumulated from zero are the row sums of adj. -/
theorem deg_rows (i : Nat) (adj : FVec Ideal S16384x16384 .f32)
    (a : Fin 4 → FVec Ideal S512x4096 .f32) (ha : ∀ k : Fin 4, IsAdjBlock i k.val adj (a k)) :
    IsRows 512 i (Cert.Spec.degree adj)
      (Cert.KernelIdeal.Gen.k0_pay3 (F := Ideal) (a 3) (Cert.KernelIdeal.Gen.k0_pay3 (F := Ideal) (a 2)
        (Cert.KernelIdeal.Gen.k0_pay3 (F := Ideal) (a 1) (Cert.KernelIdeal.Gen.k0_pay3 (F := Ideal) (a 0)
          (Cert.KernelIdeal.Gen.k0_pay2 (F := Ideal)))))) := by
  intro p u r hr
  rw [pay3_apply, pay3_apply, pay3_apply, pay3_apply, pay2_apply, degree_apply]
  exact sum_four_blocks (fun c => adj (ix2 r c)) (fun k q => a k (ix2 p q))
    fun k q c hc => ha k p q r c hr hc

end Cert.RowsAcc

end
-- ==== Proof.LibRowReduce.lean ====
/-
  Row blocks under the operations of a row normalisation, at the exact instance.

  Beside the row-wise operations of LibRowBlock.lean, a layer that normalises each row needs five more, each of which
  again computes row `r` of its result from rows `r` of its operands alone: the quotient, the reciprocal square root,
  a column repeated along every row, the sum of each row kept as a column, and (already there as the splat of a
  constant, at one column) a constant column. The lemmas below say so, with the whole-matrix side spelt as a host
  program spells it and the block side as a kernel body does.
-/
import proofs.«153857_j5291399708711_1_alg».proof.Proof.LibRowBlock

noncomputable section

namespace Cert.RowBlock

open Idealize.ShloMosaic Idealize.ShloMosaic.ValueIdx

/-! ## A trailing unit axis -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array broadcast to `[a, 1]` along its one axis reads, at `(i, u)`, the operand at `i`. -/
theorem broadcastInDim_a_a1_apply {α : Type} {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- An `[a, 1]` column broadcast to `[a, b]` reads, at `(i, c)`, the column at row `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- An `[a, 1]` column broadcast to `[a, b]` with both axes kept in place reads, at `(i, c)`, the column at row `i`. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (i : Fin a) (c : Fin b) :
    broadcastInDim ⟨2, ![a, b]⟩ ![0, 1] h v (ix2 i c) = v (ix2 i (0 : Fin 1)) := by
  refine broadcastInDim_apply ![0, 1] h v (ix2 i c) (ix2 i (0 : Fin 1)) fun ax => ?_
  match ax with
  | ⟨0, _⟩ =>
    show i.val = if a = 1 then 0 else i.val
    split
    · have := i.isLt; omega
    · rfl
  | ⟨1, _⟩ => rfl

namespace IsRows

variable {N n B t : Nat}

/-! ## The quotient and the reciprocal square root -/

section Arith
variable {φ : FTy} {A A' : FVec Ideal ⟨2, ![N, n]⟩ φ} {a a' : FVec Ideal ⟨2, ![B, n]⟩ φ}

/-- The host's quotient and the kernel's are one function of two extended reals. -/
theorem div (H : IsRows B t A a) (H' : IsRows B t A' a') : IsRows B t (Host.divf A A') (divf a a') := by
  intro p j r hr
  show Ideal.div (a (ix2 p j)) (a' (ix2 p j)) = Ideal.div (A (ix2 r j)) (A' (ix2 r j))
  rw [H p j r hr, H' p j r hr]

/-- The host's reciprocal square root and the kernel's are one function of an extended real. -/
theorem rsqrtf (H : IsRows B t A a) : IsRows B t (Host.rsqrt A) (rsqrt a) := by
  intro p j r hr
  show Ideal.rsqrt (a (ix2 p j)) = Ideal.rsqrt (A (ix2 r j))
  rw [H p j r hr]

end Arith

/-! ## A column repeated along the rows -/

/-- A column repeated on every column: row `r` of the result is the column's entry `r`, so the row block of the repeated
    column is the repeated row block of the column. -/
theorem cols {α : Type} {V : (⟨2, ![N, 1]⟩ : Shape).Idx → α} {v : (⟨2, ![B, 1]⟩ : Shape).Idx → α} (H : IsRows B t V v)
    (hV : (⟨2, ![N, 1]⟩ : Shape).BroadcastsInDim ⟨2, ![N, n]⟩ ![0, 1]) (hv : (⟨2, ![B, 1]⟩ : Shape).Broadcasts ⟨2, ![B, n]⟩) :
    IsRows B t (broadcastInDim ⟨2, ![N, n]⟩ ![0, 1] hV V) (broadcastTo ⟨2, ![B, n]⟩ v hv) := by
  intro p j r hr
  rw [broadcastTo_a1_ab_apply, broadcastInDim_a1_ab_apply]
  exact H p 0 r hr

/-! ## The sum of each row, as a column -/

/-- The sum of each row: `0 + ∑ⱼ A(r, j)` on the whole matrix, `∑ⱼ a(p, j)` on the block, each kept as a column; row
    `r` of the result is the sum of row `r` of the operand. -/
theorem rowSum {φ : FTy} {A : FVec Ideal ⟨2, ![N, n]⟩ φ} {a : FVec Ideal ⟨2, ![B, n]⟩ φ} (H : IsRows B t A a)
    (z : BitVec φ.bits) (hz : Ideal.ofBits φ z = 0)
    (hR : (⟨2, ![N, n]⟩ : Shape).ReducesTo [1] ⟨1, ![N]⟩) (hu : 0 < (⟨0, ![]⟩ : Shape).numel)
    (hb : (⟨1, ![N]⟩ : Shape).BroadcastsInDim ⟨2, ![N, 1]⟩ ![0])
    (acc : BitVec φ.bits) (hr : (⟨2, ![B, n]⟩ : Shape).Reduces [1] ⟨1, ![B]⟩) (hφ : FKind.Formats φ)
    (hacc : acc = FKind.add.neutral φ hφ) (hc : (⟨1, ![B]⟩ : Shape).ShapeCasts ⟨2, ![B, 1]⟩) :
    IsRows B t
      (broadcastInDim ⟨2, ![N, 1]⟩ ![0] hb (Host.reduceAdd A (constant (F := Ideal) ⟨0, ![]⟩ φ z) hR hu))
      (shapeCast ⟨2, ![B, 1]⟩ (multiReduction .add [1] ⟨1, ![B]⟩ a acc hr hφ hacc) hc) := by
  intro p j r hpr
  have hR' : (⟨2, ![N, n]⟩ : Shape).Reduces [1] ⟨1, ![N]⟩ := ⟨hR.1, Nat.one_pos, hR.2⟩
  rw [shapeCast_a_a1_apply, broadcastInDim_a_a1_apply]
  refine (Ideal.multiReduction_add_single a acc hr hφ hacc (ix1 p)).trans (Eq.symm ?_)
  refine (Ideal.hostReduceAdd_single hR hR' A _ (ix1 r)).trans ?_
  show Ideal.ofBits φ z + ∑ k : Fin n, A (hR'.lift (ix1 r) k) = ∑ k : Fin n, a (hr.lift (ix1 p) k)
  rw [hz, zero_add]
  refine Finset.sum_congr rfl fun k _ => ?_
  have eA : hR'.lift (ix1 r) k = ix2 r k := funext fun c => Fin.ext (by
    match c with
    | ⟨0, _⟩ => rfl
    | ⟨1, _⟩ => rfl)
  have ea : hr.lift (ix1 p) k = ix2 p k := funext fun c => Fin.ext (by
    match c with
    | ⟨0, _⟩ => rfl
    | ⟨1, _⟩ => rfl)
  rw [eA, ea]
  exact (H p k r hpr).symm

end IsRows

end Cert.RowBlock

end
-- ==== Proof.RowsEpilogue.lean ====
/-
  The last step of a row block. Every operation after the two accumulators computes row r of its result from rows r
  of its operands: the clamp, the quotient by the degree column, the three products with weight matrices on the
  right, the bias rows, the concatenation along the columns, the row mean and the mean of squared deviations, the
  reciprocal square root, the scale, the shift and the clip. So the block the kernel stores is the rows of the
  layer's result.
-/
import proofs.«153857_j5291399708711_1_alg».proof.Proof.Spec
import proofs.«153857_j5291399708711_1_alg».proof.Proof.Blocks
import proofs.«153857_j5291399708711_1_alg».proof.Proof.LibRowReduce
import proofs.«153857_j5291399708711_1_alg».proof.Proof.Gen.KernelIdeal.Skeleton
import proofs.«153857_j5291399708711_1_alg».proof.Proof.Gen.ReferenceIdeal

noncomputable section

namespace Cert.RowsEpilogue

open Idealize.ShloMosaic Idealize.ShloMosaic.ValueIdx Cert.RowBlock
open Cert.KernelIdeal (S512x128 S512x1)
open Cert.ReferenceIdeal (S16384x128 S16384x16384 S128x128 S128 S256x128)

/-- The row means of a row block are the row block of the row means: each is the row's sum over 128. -/
theorem rowMean_rows {i : Nat} {H : FVec Ideal S16384x128 .f32} {h : FVec Ideal S512x128 .f32} (hh : IsRows 512 i H h)
    (hr : S512x128.Reduces [1] ⟨1, ![512]⟩) (hφ : FKind.Formats .f32)
    (hacc : (0x00000000#32 : BitVec 32) = FKind.add.neutral .f32 hφ) (hc : (⟨1, ![512]⟩ : Shape).ShapeCasts S512x1) :
    IsRows 512 i (Cert.Spec.rowMean H)
      (divf (shapeCast S512x1 (multiReduction .add [1] ⟨1, ![512]⟩ h 0x00000000#32 hr hφ hacc) hc)
        (broadcast S512x1 (Scalar.ofBits (F := Ideal) .f32 0x43000000#32))) :=
  IsRows.div (IsRows.rowSum hh _ Ideal.ofBits_zero_f32 _ _ _ _ hr hφ hacc hc) (IsRows.splat .f32 _ _)

/-- A row block less its row means is the row block of the matrix less its row means. -/
theorem centred_rows {i : Nat} {H : FVec Ideal S16384x128 .f32} {h : FVec Ideal S512x128 .f32} {m : FVec Ideal S512x1 .f32}
    (hh : IsRows 512 i H h) (hm : IsRows 512 i (Cert.Spec.rowMean H) m) (hb : S512x1.Broadcasts S512x128) :
    IsRows 512 i (Cert.Spec.centred H) (subf h (broadcastTo S512x128 m hb)) :=
  IsRows.sub hh (IsRows.cols hm _ hb)

/-- The hidden features of a row block: from the rows of the degree column, of adj · x and of x. -/
theorem hidden_rows (i : Nat) (x : FVec Ideal S16384x128 .f32) (adj : FVec Ideal S16384x16384 .f32)
    (sW : FVec Ideal S128x128 .f32) (sb : FVec Ideal S128 .f32) (nW : FVec Ideal S128x128 .f32) (nb : FVec Ideal S128 .f32)
    (cW : FVec Ideal S256x128 .f32) (cb : FVec Ideal S128 .f32)
    (deg : FVec Ideal S512x1 .f32) (nsum xi : FVec Ideal S512x128 .f32)
    (hdeg : IsRows 512 i (Cert.Spec.degree adj) deg) (hnsum : IsRows 512 i (Cert.Spec.neighSum adj x) nsum)
    (hxi : IsRows 512 i x xi) :
    IsRows 512 i (Cert.Spec.hidden x adj sW sb nW nb cW cb)
      (Cert.KernelIdeal.Gen.k0_pay6 (F := Ideal) deg nsum nW nb xi sW sb cW cb) := by
  unfold Cert.Spec.hidden Cert.Spec.combined Cert.Spec.selfFeat Cert.Spec.neighFeat Cert.Spec.neighMean
    Cert.Spec.degreeClamped Cert.Spec.cols Cert.Spec.constCol Cert.Spec.biasRows Cert.KernelIdeal.Gen.k0_pay6
  dsimp only
  -- the two feature blocks side by side, times combW, plus combB
  refine IsRows.add ?_ (IsRows.bias _ _ _ _ _)
  refine IsRows.dot ?_ _ _ (by exact ⟨rfl, rfl, rfl, rfl, rfl, rfl⟩) (by exact ⟨rfl, rfl, rfl, rfl, rfl, rfl⟩) _ _ (fun _ _ => rfl)
  refine IsRows.trunc ?_ _
  refine IsRows.concat2 ?_ ?_ (by rfl) _ _
  · -- x · selfW + selfB on the rows of x
    refine IsRows.add ?_ (IsRows.bias _ _ _ _ _)
    refine IsRows.dot ?_ _ _ (by exact ⟨rfl, rfl, rfl, rfl, rfl, rfl⟩) (by exact ⟨rfl, rfl, rfl, rfl, rfl, rfl⟩) _ _ (fun _ _ => rfl)
    exact IsRows.trunc hxi _
  · -- the clamped degree column, the neighbours' mean, and its product with neighW plus neighB
    refine IsRows.add ?_ (IsRows.bias _ _ _ _ _)
    refine IsRows.dot ?_ _ _ (by exact ⟨rfl, rfl, rfl, rfl, rfl, rfl⟩) (by exact ⟨rfl, rfl, rfl, rfl, rfl, rfl⟩) _ _ (fun _ _ => rfl)
    refine IsRows.trunc ?_ _
    refine IsRows.div hnsum ?_
    refine IsRows.cols ?_ _ _
    exact IsRows.maxf (IsRows.splat .f32 _ _) hdeg

/-- From the rows of the degree column, of adj · x and of x to the rows of the layer's result. -/
theorem out_rows (i : Nat) (x : FVec Ideal S16384x128 .f32) (adj : FVec Ideal S16384x16384 .f32)
    (sW : FVec Ideal S128x128 .f32) (sb : FVec Ideal S128 .f32) (nW : FVec Ideal S128x128 .f32) (nb : FVec Ideal S128 .f32)
    (cW : FVec Ideal S256x128 .f32) (cb : FVec Ideal S128 .f32) (g b : FVec Ideal S128 .f32)
    (deg : FVec Ideal S512x1 .f32) (nsum xi : FVec Ideal S512x128 .f32)
    (hdeg : IsRows 512 i (Cert.Spec.degree adj) deg) (hnsum : IsRows 512 i (Cert.Spec.neighSum adj x) nsum)
    (hxi : IsRows 512 i x xi) :
    IsRows 512 i (Cert.Spec.out x adj sW sb nW nb cW cb g b)
      (Cert.KernelIdeal.Gen.k0_pay5 (F := Ideal)
        (Cert.KernelIdeal.Gen.k0_pay6 (F := Ideal) deg nsum nW nb xi sW sb cW cb)
        (Cert.KernelIdeal.Gen.k0_pay7 (F := Ideal) deg nsum nW nb xi sW sb cW cb)
        (Cert.KernelIdeal.Gen.k0_pay8 (F := Ideal) deg nsum nW nb xi sW sb cW cb) g b) := by
  -- the hidden features, their row means, and the squared deviations from them
  have h6 := hidden_rows i x adj sW sb nW nb cW cb deg nsum xi hdeg hnsum hxi
  have h7 : IsRows 512 i (Cert.Spec.rowMean (Cert.Spec.hidden x adj sW sb nW nb cW cb))
      (Cert.KernelIdeal.Gen.k0_pay7 (F := Ideal) deg nsum nW nb xi sW sb cW cb) := by
    unfold Cert.KernelIdeal.Gen.k0_pay7
    exact rowMean_rows h6 _ _ _ _
  have h8 : IsRows 512 i
      (mulf (Cert.Spec.centred (Cert.Spec.hidden x adj sW sb nW nb cW cb)) (Cert.Spec.centred (Cert.Spec.hidden x adj sW sb nW nb cW cb)))
      (Cert.KernelIdeal.Gen.k0_pay8 (F := Ideal) deg nsum nW nb xi sW sb cW cb) := by
    unfold Cert.KernelIdeal.Gen.k0_pay8
    exact IsRows.mul (centred_rows h6 h7 _) (centred_rows h6 h7 _)
  -- the variance plus ε, its reciprocal square root repeated along the rows, the scale, the shift and the clip
  unfold Cert.Spec.out Cert.Spec.normRelu Cert.Spec.rowVar Cert.Spec.cols Cert.Spec.constCol Cert.Spec.biasRows
    Cert.KernelIdeal.Gen.k0_pay5
  dsimp only
  refine IsRows.maxf ?_ (IsRows.splat .f32 _ _)
  refine IsRows.add ?_ (IsRows.bias _ _ _ _ _)
  refine IsRows.mul ?_ (IsRows.bias _ _ _ _ _)
  refine IsRows.mul (centred_rows h6 h7 _) ?_
  refine IsRows.cols ?_ _ _
  refine IsRows.rsqrtf ?_
  exact IsRows.add (rowMean_rows h8 _ _ _ _) (IsRows.splat .f32 _ _)

end Cert.RowsEpilogue

end
-- ==== Proof.KernelIdealValue.lean ====
/-
  The kernel's result array, at the exact instance. After the run the result array holds, block by block, what the
  points with the last column block wrote back. At such a point the accumulators hold four steps from the reset
  value, one per column block of the row block, which are the row block's degrees and neighbour sums; the stored rows
  are the finishing step of those, which are the same rows of the layer's function of the whole arrays. The 32 row
  blocks tile the array, so the array is that function.
-/
import proofs.«153857_j5291399708711_1_alg».proof.Proof.KernelIdealData
import proofs.«153857_j5291399708711_1_alg».proof.Proof.KernelIdealPieces
import proofs.«153857_j5291399708711_1_alg».proof.Proof.KernelIdealBlocksAt
import proofs.«153857_j5291399708711_1_alg».proof.Proof.RowsAcc
import proofs.«153857_j5291399708711_1_alg».proof.Proof.RowsEpilogue
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.RowBlock Cert.Blocks

variable (m : (ℓ : Loc nD τ sig) → Buf (Elt Ideal) ℓ)

/-! ## What the accumulators hold after a point, as one step from what the point before left -/

/-- The accumulation read at equal point numbers is the same. -/
theorem outsAt0_congr (c : Dev nD) (a b : ℕ) (ha : a < cfg0.N) (hb : b < cfg0.N) (hab : a = b) :
    outsAt0 m c a ha = outsAt0 m c b hb := by
  subst hab; rfl

/-- After a point of the first column block: one step from the reset values. -/
theorem accA (c : Dev nD) (t : Fin cfg0.N) (h0 : t.val % 4 = 0) :
    (outsAt0 m c t.val t.isLt).2.1 = k0_pay4 (F := Ideal) (iblk m c 0 t) (iblk m c 1 t) (k0_pay1 (F := Ideal))
      ∧ (outsAt0 m c t.val t.isLt).2.2 = k0_pay3 (F := Ideal) (iblk m c 0 t) (k0_pay2 (F := Ideal)) := by
  rw [outsAt0_A m c t h0]
  unfold atA
  dsimp only
  exact ⟨soutA_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (notLast_of_first t h0) (iblk m c 0 t) (iblk m c 1 t),
    soutA_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (notLast_of_first t h0) (iblk m c 0 t) (iblk m c 1 t)⟩

/-- After a point of a middle column block: one step from what the point before left. -/
theorem accB (c : Dev nD) (t s : Fin cfg0.N) (hs : t.val = s.val + 1) (h0 : ¬t.val % 4 = 0) (h1 : ¬t.val % 4 = 3) :
    (outsAt0 m c t.val t.isLt).2.1
        = k0_pay4 (F := Ideal) (iblk m c 0 t) (iblk m c 1 t) (outsAt0 m c s.val s.isLt).2.1
      ∧ (outsAt0 m c t.val t.isLt).2.2 = k0_pay3 (F := Ideal) (iblk m c 0 t) (outsAt0 m c s.val s.isLt).2.2 := by
  rw [outsAt0_B m c t h0 h1,
    outsAt0_congr m c (t.val - 1) s.val (Nat.lt_of_le_of_lt (Nat.sub_le _ _) t.isLt) s.isLt (by omega)]
  unfold atB
  dsimp only
  exact ⟨soutB_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (iblk m c 0 t) (iblk m c 1 t) (outsAt0 m c s.val s.isLt).2.1 (outsAt0 m c s.val s.isLt).2.2,
    soutB_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (iblk m c 0 t) (iblk m c 1 t) (outsAt0 m c s.val s.isLt).2.1 (outsAt0 m c s.val s.isLt).2.2⟩

/-- After a point of the last column block the output block holds the finishing step of the accumulators as this point
    leaves them: one step from what the point before left. -/
theorem outC (c : Dev nD) (t s : Fin cfg0.N) (hs : t.val = s.val + 1) (h0 : ¬t.val % 4 = 0) (h1 : t.val % 4 = 3) :
    (outsAt0 m c t.val t.isLt).1
      = k0_pay5 (F := Ideal)
          (k0_pay6 (F := Ideal) (k0_pay3 (F := Ideal) (iblk m c 0 t) (outsAt0 m c s.val s.isLt).2.2)
            (k0_pay4 (F := Ideal) (iblk m c 0 t) (iblk m c 1 t) (outsAt0 m c s.val s.isLt).2.1)
            (iblk m c 5 t) (iblk m c 6 t) (iblk m c 2 t) (iblk m c 3 t) (iblk m c 4 t) (iblk m c 7 t) (iblk m c 8 t))
          (k0_pay7 (F := Ideal) (k0_pay3 (F := Ideal) (iblk m c 0 t) (outsAt0 m c s.val s.isLt).2.2)
            (k0_pay4 (F := Ideal) (iblk m c 0 t) (iblk m c 1 t) (outsAt0 m c s.val s.isLt).2.1)
            (iblk m c 5 t) (iblk m c 6 t) (iblk m c 2 t) (iblk m c 3 t) (iblk m c 4 t) (iblk m c 7 t) (iblk m c 8 t))
          (k0_pay8 (F := Ideal) (k0_pay3 (F := Ideal) (iblk m c 0 t) (outsAt0 m c s.val s.isLt).2.2)
            (k0_pay4 (F := Ideal) (iblk m c 0 t) (iblk m c 1 t) (outsAt0 m c s.val s.isLt).2.1)
            (iblk m c 5 t) (iblk m c 6 t) (iblk m c 2 t) (iblk m c 3 t) (iblk m c 4 t) (iblk m c 7 t) (iblk m c 8 t))
          (iblk m c 9 t) (iblk m c 10 t) := by
  rw [outsAt0_C m c t h0 h1,
    outsAt0_congr m c (t.val - 1) s.val (Nat.lt_of_le_of_lt (Nat.sub_le _ _) t.isLt) s.isLt (by omega)]
  unfold atC
  dsimp only
  exact outC_11_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c s.val s.isLt).2.1 (outsAt0 m c s.val s.isLt).2.2

/-! ## The stored block of a row block, and the array -/

/-- At the last point of row block i the stored block is rows 512·i … of the layer's result: the accumulators there hold
    four steps from the reset values over the row block's four column blocks. -/
theorem rows_at_i (c : Dev nD) (i : ℕ) (h3 : 4 * i + 3 < cfg0.N) :
    IsRows 512 i (Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
      ((outsAt0 m c (4 * i + 3) h3).1) := by
  have h0 : 4 * i < cfg0.N := by omega
  have h1 : 4 * i + 1 < cfg0.N := by omega
  have h2 : 4 * i + 2 < cfg0.N := by omega
  -- the four points' steps, the last one first
  have e3 := outC m c ⟨4 * i + 3, h3⟩ ⟨4 * i + 2, h2⟩ rfl (by show ¬(4 * i + 3) % 4 = 0; omega) (by show (4 * i + 3) % 4 = 3; omega)
  have e2 := accB m c ⟨4 * i + 2, h2⟩ ⟨4 * i + 1, h1⟩ rfl (by show ¬(4 * i + 2) % 4 = 0; omega) (by show ¬(4 * i + 2) % 4 = 3; omega)
  have e1 := accB m c ⟨4 * i + 1, h1⟩ ⟨4 * i, h0⟩ rfl (by show ¬(4 * i + 1) % 4 = 0; omega) (by show ¬(4 * i + 1) % 4 = 3; omega)
  have e0 := accA m c ⟨4 * i, h0⟩ (by show (4 * i) % 4 = 0; omega)
  dsimp only at e0 e1 e2 e3
  rw [e3, e2.1, e2.2, e1.1, e1.2, e0.1, e0.2,
    whole_3 m c ⟨4 * i + 3, h3⟩, whole_4 m c ⟨4 * i + 3, h3⟩, whole_5 m c ⟨4 * i + 3, h3⟩, whole_6 m c ⟨4 * i + 3, h3⟩,
    whole_7 m c ⟨4 * i + 3, h3⟩, whole_8 m c ⟨4 * i + 3, h3⟩, whole_9 m c ⟨4 * i + 3, h3⟩, whole_10 m c ⟨4 * i + 3, h3⟩]
  -- which parts of adj and of x the four points read
  have ha : ∀ k : Fin 4, IsAdjBlock i k.val (m ((c : Thread nD τ).loc main_arg1))
      (iblk m c 0 ⟨4 * i + k.val, by have := k.isLt; omega⟩) := fun k => by
    have h := adj_block m c ⟨4 * i + k.val, by have := k.isLt; omega⟩
    have q1 : (4 * i + k.val) / 4 = i := by have := k.isLt; omega
    have q2 : (4 * i + k.val) % 4 = k.val := by have := k.isLt; omega
    dsimp only at h
    rw [q1, q2] at h
    exact h
  have hx : ∀ k : Fin 4, IsRows 4096 k.val (m ((c : Thread nD τ).loc main_arg0))
      (iblk m c 1 ⟨4 * i + k.val, by have := k.isLt; omega⟩) := fun k => by
    have h := xk_rows m c ⟨4 * i + k.val, by have := k.isLt; omega⟩
    have q2 : (4 * i + k.val) % 4 = k.val := by have := k.isLt; omega
    dsimp only at h
    rw [q2] at h
    exact h
  have hxi : IsRows 512 i (m ((c : Thread nD τ).loc main_arg0)) (iblk m c 2 ⟨4 * i + 3, h3⟩) := by
    have h := xi_rows m c ⟨4 * i + 3, h3⟩
    have q1 : (4 * i + 3) / 4 = i := by omega
    dsimp only at h
    rw [q1] at h
    exact h
  exact Cert.RowsEpilogue.out_rows i (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) _ _ _
    (Cert.RowsAcc.deg_rows i (m ((c : Thread nD τ).loc main_arg1))
      (fun k => iblk m c 0 ⟨4 * i + k.val, by have := k.isLt; omega⟩) ha)
    (Cert.RowsAcc.nsum_rows i (m ((c : Thread nD τ).loc main_arg1)) (m ((c : Thread nD τ).loc main_arg0))
      (fun k => iblk m c 0 ⟨4 * i + k.val, by have := k.isLt; omega⟩)
      (fun k => iblk m c 1 ⟨4 * i + k.val, by have := k.isLt; omega⟩) ha hx)
    hxi

/-- At every point that writes back, the stored block is rows 512·(t / 4) … of the layer's result. -/
theorem rows_at (c : Dev nD) (t : Fin cfg0.N) (h3 : t.val % 4 = 3) :
    IsRows 512 (t.val / 4) (Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
      ((outsAt0 m c t.val t.isLt).1) := by
  obtain ⟨tv, ht⟩ := t
  obtain ⟨i, hi⟩ : ∃ i, tv = 4 * i + 3 := ⟨tv / 4, by dsimp only at h3; omega⟩
  subst hi
  dsimp only
  rw [show (4 * i + 3) / 4 = i by omega]
  exact rows_at_i m c i ht

/-- The result array after the run is the layer's function of the argument arrays. -/
theorem final (c : Dev nD) :
    (dats (F := Ideal) m 0 c).arrAt 11 cfg0.N = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine out_final c (dats (F := Ideal) m 0 c) _ fun t h3 => ?_
  show IsRows 512 (t.val / 4) _ ((cfg0.win 11).cut (grid0.coords t) ((dats (F := Ideal) m 0 c).after 11 t))
  rw [after0_11]
  exact rows_at m c t h3

end Cert.KernelIdeal.Fr

end
-- ==== Proof.RefRun.lean ====
/-
  The reference program's run: a straight line of host operations, with the clamp, the variance, the selection and
  the clip written as functions it calls. Every weakly fair execution ends with the result buffer at the layer's
  function of the argument arrays and the arguments unchanged. The variance divides by 128 less the integer 0 read as
  a float, and keeps the quotient where that divisor is positive: it is, so the quotient is the mean of squares.
-/
import proofs.«153857_j5291399708711_1_alg».proof.Proof.Spec
import proofs.«153857_j5291399708711_1_alg».proof.Proof.Gen.ReferenceIdeal
import Idealize.ShloMosaic.Lib.StableHlo.Run
import Idealize.ShloMosaic.PureOps.Ideal.Laws

noncomputable section

namespace Cert.RefRun

open Idealize.ShloMosaic Idealize.ShloMosaic.TcCoe Idealize.SL.Sem Idealize.ShloMosaic.StableHlo
open Cert.ReferenceIdeal Cert.ReferenceIdeal.Facts₀

section Line

variable {F : FTy → Type} [FloatOps F]

/-- The seventy operations in the order they run: @main's own forty-one, and at each call the callee's, over that
    call's buffers — the clamp's three after the constant one; the variance's twenty and, inside it, the selection's
    three, after the integer zero; the clip's three last. -/
abbrev ops : List (HloOp τ sig (Elt F)) :=
  [ binary main_arg0 main_arg2 main_v0 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    unary main_arg3 main_v1 (broadcastInDim S1x128 ![1] bcast_S128_S1x128_1 : (⟨S128, .f32⟩ : BufTy).Contents (Elt F) → (⟨S1x128, .f32⟩ : BufTy).Contents (Elt F)),
    unary main_v1 main_v2 (broadcastInDim S16384x128 ![0, 1] bcast_S1x128_S16384x128_0_1 : (⟨S1x128, .f32⟩ : BufTy).Contents (Elt F) → (⟨S16384x128, .f32⟩ : BufTy).Contents (Elt F)),
    binary main_v0 main_v2 main_v3 (addf : (⟨S16384x128, .f32⟩ : BufTy).Contents (Elt F) → (⟨S16384x128, .f32⟩ : BufTy).Contents (Elt F) → (⟨S16384x128, .f32⟩ : BufTy).Contents (Elt F)),
    binary main_arg1 main_arg0 main_v4 ((fun l r => Host.dotGeneral dot_S16384x16384_S16384x128_S16384x128_1_0_0_1_n_n none l r) : (⟨S16384x16384, .f32⟩ : BufTy).Contents (Elt F) → (⟨S16384x128, .f32⟩ : BufTy).Contents (Elt F) → (⟨S16384x128, .f32⟩ : BufTy).Contents (Elt F)),
    nullary main_cst (constant S_ .f32 0x00000000#32),
    binary main_arg1 main_cst main_v5 ((fun x v => Host.reduceAdd x v reducesTo_S16384x16384_S16384_d1 h_S_) : (⟨S16384x16384, .f32⟩ : BufTy).Contents (Elt F) → (⟨S_, .f32⟩ : BufTy).Contents (Elt F) → (⟨S16384, .f32⟩ : BufTy).Contents (Elt F)),
    unary main_v5 main_v6 (broadcastInDim S16384x1 ![0] bcast_S16384_S16384x1_0 : (⟨S16384, .f32⟩ : BufTy).Contents (Elt F) → (⟨S16384x1, .f32⟩ : BufTy).Contents (Elt F)),
    nullary main_cst_0 (constant S_ .f32 0x3F800000#32),
    TRef.unary (.of main_cst_0) main_call0.v0 id,
    TRef.unary main_call0.v0 main_call0.v1 (broadcastInDim S16384x1 ![] bcast_S_S16384x1),
    TRef.binary main_call0.v1 (.of main_v6) main_call0.v2 maximumf,
    unary main_v7 main_v8 (broadcastInDim S16384x128 ![0, 1] bcast_S16384x1_S16384x128_0_1 : (⟨S16384x1, .f32⟩ : BufTy).Contents (Elt F) → (⟨S16384x128, .f32⟩ : BufTy).Contents (Elt F)),
    binary main_v4 main_v8 main_v9 (Host.divf : (⟨S16384x128, .f32⟩ : BufTy).Contents (Elt F) → (⟨S16384x128, .f32⟩ : BufTy).Contents (Elt F) → (⟨S16384x128, .f32⟩ : BufTy).Contents (Elt F)),
    binary main_v9 main_arg4 main_v10 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    unary main_arg5 main_v11 (broadcastInDim S1x128 ![1] bcast_S128_S1x128_1 : (⟨S128, .f32⟩ : BufTy).Contents (Elt F) → (⟨S1x128, .f32⟩ : BufTy).Contents (Elt F)),
    unary main_v11 main_v12 (broadcastInDim S16384x128 ![0, 1] bcast_S1x128_S16384x128_0_1 : (⟨S1x128, .f32⟩ : BufTy).Contents (Elt F) → (⟨S16384x128, .f32⟩ : BufTy).Contents (Elt F)),
    binary main_v10 main_v12 main_v13 (addf : (⟨S16384x128, .f32⟩ : BufTy).Contents (Elt F) → (⟨S16384x128, .f32⟩ : BufTy).Contents (Elt F) → (⟨S16384x128, .f32⟩ : BufTy).Contents (Elt F)),
    binary main_v3 main_v13 main_v14 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    binary main_v14 main_arg6 main_v15 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg7 main_v16 (broadcastInDim S1x128 ![1] bcast_S128_S1x128_1 : (⟨S128, .f32⟩ : BufTy).Contents (Elt F) → (⟨S1x128, .f32⟩ : BufTy).Contents (Elt F)),
    unary main_v16 main_v17 (broadcastInDim S16384x128 ![0, 1] bcast_S1x128_S16384x128_0_1 : (⟨S1x128, .f32⟩ : BufTy).Contents (Elt F) → (⟨S16384x128, .f32⟩ : BufTy).Contents (Elt F)),
    binary main_v15 main_v17 main_v18 (addf : (⟨S16384x128, .f32⟩ : BufTy).Contents (Elt F) → (⟨S16384x128, .f32⟩ : BufTy).Contents (Elt F) → (⟨S16384x128, .f32⟩ : BufTy).Contents (Elt F)),
    nullary main_cst_1 (constant S_ .f32 0x00000000#32),
    binary main_v18 main_cst_1 main_v19 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    unary main_v19 main_v20 (broadcastInDim S16384x1 ![0] bcast_S16384_S16384x1_0 : (⟨S16384, .f32⟩ : BufTy).Contents (Elt F) → (⟨S16384x1, .f32⟩ : BufTy).Contents (Elt F)),
    nullary main_cst_2 (constant S_ .f32 0x43000000#32),
    unary main_cst_2 main_v21 (broadcastInDim S16384x1 ![] bcast_S_S16384x1 : (⟨S_, .f32⟩ : BufTy).Contents (Elt F) → (⟨S16384x1, .f32⟩ : BufTy).Contents (Elt F)),
    binary main_v20 main_v21 main_v22 (Host.divf : (⟨S16384x1, .f32⟩ : BufTy).Contents (Elt F) → (⟨S16384x1, .f32⟩ : BufTy).Contents (Elt F) → (⟨S16384x1, .f32⟩ : BufTy).Contents (Elt F)),
    nullary main_c (constantI S_ 32 0#32),
    TRef.nullary main_call1.cst (constant S_ .f32 0x00000000#32),
    TRef.binary (.of main_v18) main_call1.cst main_call1.v0 (fun x v => Host.reduceAdd x v reducesTo_S16384x128_S16384_d1 h_S_),
    TRef.unary main_call1.v0 main_call1.v1 (broadcastInDim S16384x1 ![0] bcast_S16384_S16384x1_0),
    TRef.nullary main_call1.cst_0 (constant S_ .f32 0x43000000#32),
    TRef.unary main_call1.cst_0 main_call1.v2 (broadcastInDim S16384x1 ![] bcast_S_S16384x1),
    TRef.binary main_call1.v1 main_call1.v2 main_call1.v3 Host.divf,
    TRef.unary main_call1.v3 main_call1.v4 (broadcastInDim S16384x128 ![0, 1] bcast_S16384x1_S16384x128_0_1),
    TRef.binary (.of main_v18) main_call1.v4 main_call1.v5 subf,
    TRef.binary main_call1.v5 main_call1.v5 main_call1.v6 mulf,
    TRef.unary (.of main_c) main_call1.v7 (sitofp .f32),
    TRef.nullary main_call1.cst_1 (constant S_ .f32 0x43000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S16384x128_S16384_d1 h_S_),
    TRef.unary main_call1.v9 main_call1.v10 (broadcastInDim S16384x1 ![0] bcast_S16384_S16384x1_0),
    TRef.unary main_call1.v8 main_call1.v11 (broadcastInDim S16384x1 ![] bcast_S_S16384x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S16384x1 ![] bcast_S_S16384x1),
    TRef.ternary main_call1.v13 main_call1.v12 main_call1.call0.v1 main_call1.call0.v2 (fun p a b => select (broadcastInDim S16384x1 ![] bcast_S_S16384x1 p) a b),
    unary main_v22 main_v24 (broadcastInDim S16384x128 ![0, 1] bcast_S16384x1_S16384x128_0_1 : (⟨S16384x1, .f32⟩ : BufTy).Contents (Elt F) → (⟨S16384x128, .f32⟩ : BufTy).Contents (Elt F)),
    binary main_v18 main_v24 main_v25 (subf : (⟨S16384x128, .f32⟩ : BufTy).Contents (Elt F) → (⟨S16384x128, .f32⟩ : BufTy).Contents (Elt F) → (⟨S16384x128, .f32⟩ : BufTy).Contents (Elt F)),
    nullary main_cst_3 (constant S_ .f32 0x3727C5AC#32),
    unary main_cst_3 main_v26 (broadcastInDim S16384x1 ![] bcast_S_S16384x1 : (⟨S_, .f32⟩ : BufTy).Contents (Elt F) → (⟨S16384x1, .f32⟩ : BufTy).Contents (Elt F)),
    binary main_v23 main_v26 main_v27 (addf : (⟨S16384x1, .f32⟩ : BufTy).Contents (Elt F) → (⟨S16384x1, .f32⟩ : BufTy).Contents (Elt F) → (⟨S16384x1, .f32⟩ : BufTy).Contents (Elt F)),
    unary main_v27 main_v28 (Host.rsqrt : (⟨S16384x1, .f32⟩ : BufTy).Contents (Elt F) → (⟨S16384x1, .f32⟩ : BufTy).Contents (Elt F)),
    unary main_v28 main_v29 (broadcastInDim S16384x128 ![0, 1] bcast_S16384x1_S16384x128_0_1 : (⟨S16384x1, .f32⟩ : BufTy).Contents (Elt F) → (⟨S16384x128, .f32⟩ : BufTy).Contents (Elt F)),
    binary main_v25 main_v29 main_v30 (mulf : (⟨S16384x128, .f32⟩ : BufTy).Contents (Elt F) → (⟨S16384x128, .f32⟩ : BufTy).Contents (Elt F) → (⟨S16384x128, .f32⟩ : BufTy).Contents (Elt F)),
    unary main_arg8 main_v31 (broadcastInDim S1x128 ![1] bcast_S128_S1x128_1 : (⟨S128, .f32⟩ : BufTy).Contents (Elt F) → (⟨S1x128, .f32⟩ : BufTy).Contents (Elt F)),
    unary main_v31 main_v32 (broadcastInDim S16384x128 ![0, 1] bcast_S1x128_S16384x128_0_1 : (⟨S1x128, .f32⟩ : BufTy).Contents (Elt F) → (⟨S16384x128, .f32⟩ : BufTy).Contents (Elt F)),
    binary main_v30 main_v32 main_v33 (mulf : (⟨S16384x128, .f32⟩ : BufTy).Contents (Elt F) → (⟨S16384x128, .f32⟩ : BufTy).Contents (Elt F) → (⟨S16384x128, .f32⟩ : BufTy).Contents (Elt F)),
    unary main_arg9 main_v34 (broadcastInDim S1x128 ![1] bcast_S128_S1x128_1 : (⟨S128, .f32⟩ : BufTy).Contents (Elt F) → (⟨S1x128, .f32⟩ : BufTy).Contents (Elt F)),
    unary main_v34 main_v35 (broadcastInDim S16384x128 ![0, 1] bcast_S1x128_S16384x128_0_1 : (⟨S1x128, .f32⟩ : BufTy).Contents (Elt F) → (⟨S16384x128, .f32⟩ : BufTy).Contents (Elt F)),
    binary main_v33 main_v35 main_v36 (addf : (⟨S16384x128, .f32⟩ : BufTy).Contents (Elt F) → (⟨S16384x128, .f32⟩ : BufTy).Contents (Elt F) → (⟨S16384x128, .f32⟩ : BufTy).Contents (Elt F)),
    TRef.nullary main_call2.cst (constant S_ .f32 0x00000000#32),
    TRef.unary main_call2.cst main_call2.v0 (broadcastInDim S16384x128 ![] bcast_S_S16384x128),
    TRef.binary (.of main_v36) main_call2.v0 main_call2.v1 maximumf ]

-- seventy steps deep: the two sides are compared one step at a time
set_option maxRecDepth 8192 in
/-- @main is that straight line: a call is the callee's body applied, and sequencing a step before a line is the line
    with the step at its head, so the two sides agree by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨binary_bufs_sub .., unary_bufs_sub .., unary_bufs_sub .., binary_bufs_sub .., binary_bufs_sub .., nullary_bufs_sub ..,
    binary_bufs_sub .., unary_bufs_sub .., nullary_bufs_sub .., unary_bufs_sub .., unary_bufs_sub .., binary_bufs_sub ..,
    unary_bufs_sub .., binary_bufs_sub .., binary_bufs_sub .., unary_bufs_sub .., unary_bufs_sub .., binary_bufs_sub ..,
    binary_bufs_sub .., binary_bufs_sub .., unary_bufs_sub .., unary_bufs_sub .., binary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub ..⟩

end Line

/-! ## The value at the result buffer -/

section Value

open Cert.Spec

/-- The word of `128.0` denotes the real 128. -/
theorem ofBits_128 : Ideal.ofBits .f32 0x43000000#32 = ((128 : ℝ) : EReal) := by
  simp [Ideal.ofBits, Ideal.ieee, -EReal.coe_mul]; norm_num

/-- The variance's divisor as the reference spells it: 128 less the integer 0 read as a float. -/
def divisor : FVec Ideal S_ .f32 := subf (constant S_ .f32 0x43000000#32) (sitofp .f32 (constantI S_ 32 0#32))

/-- The integer 0 read as a float is the real 0, so the divisor is 128. -/
theorem divisor_eq : divisor = constant S_ .f32 0x43000000#32 := by
  funext k
  show Ideal.ofBits .f32 0x43000000#32 - (((0#32 : BitVec 32).toInt : ℝ) : EReal) = Ideal.ofBits .f32 0x43000000#32
  simp

/-- 128 is above zero: the comparison answers true. -/
theorem divisor_pos : cmpf .ogt divisor (constant S_ .f32 0x00000000#32) = fun _ => 1#1 := by
  rw [divisor_eq]
  funext k
  show Ideal.cmp .ogt (Ideal.ofBits .f32 0x43000000#32) (Ideal.ofBits .f32 0x00000000#32) = 1#1
  rw [ofBits_128, Ideal.ofBits_zero_f32]
  have h : (0 : EReal) < ((128 : ℝ) : EReal) := EReal.coe_pos.mpr (by norm_num)
  simp [Ideal.cmp, h]

/-- A selection on the bit 1 everywhere is its first operand. -/
theorem select_true {s : Shape} {α : Type} (a b : s.Idx → α) : select (fun _ => (1#1 : BitVec 1)) a b = a :=
  funext fun i => (if_pos rfl : Scalar.select 1#1 (a i) (b i) = a i)

/-- The variance as the reference computes it: the row sums of the squared deviations over the divisor, kept where the
    divisor is positive, the not-a-number constant elsewhere. -/
def refVar (h : FVec Ideal S16384x128 .f32) : FVec Ideal S16384x1 .f32 :=
  select (broadcastInDim S16384x1 ![] bcast_S_S16384x1 (cmpf .ogt divisor (constant S_ .f32 0x00000000#32)))
    (Host.divf (rowSum (mulf (centred h) (centred h))) (broadcastInDim S16384x1 ![] bcast_S_S16384x1 divisor))
    (broadcastInDim S16384x1 ![] bcast_S_S16384x1 (id (constant S_ .f32 0x7FC00000#32)))

/-- The divisor is 128 and positive, so the selection keeps the quotient everywhere: the mean of the squared deviations. -/
theorem refVar_eq (h : FVec Ideal S16384x128 .f32) : refVar h = rowVar h := by
  unfold refVar
  rw [divisor_pos, divisor_eq]
  exact select_true _ _

/-- The result as the reference computes it: the layer's function with the variance spelt the reference's way. -/
def refOut (x : FVec Ideal S16384x128 .f32) (adj : FVec Ideal S16384x16384 .f32) (sW : FVec Ideal S128x128 .f32)
    (sb : FVec Ideal S128 .f32) (nW : FVec Ideal S128x128 .f32) (nb : FVec Ideal S128 .f32) (cW : FVec Ideal S256x128 .f32)
    (cb : FVec Ideal S128 .f32) (g b : FVec Ideal S128 .f32) : FVec Ideal S16384x128 .f32 :=
  maximumf
    (addf (mulf (mulf (centred (hidden x adj sW sb nW nb cW cb))
      (cols (Host.rsqrt (addf (refVar (hidden x adj sW sb nW nb cW cb)) (constCol 0x3727C5AC#32))))) (biasRows g)) (biasRows b))
    (broadcastInDim S16384x128 ![] bcast_S_S16384x128 (constant S_ .f32 0x00000000#32))

/-- With the variance the mean of squares, the reference's composed function is the layer's. -/
theorem refOut_eq (x : FVec Ideal S16384x128 .f32) (adj : FVec Ideal S16384x16384 .f32) (sW : FVec Ideal S128x128 .f32)
    (sb : FVec Ideal S128 .f32) (nW : FVec Ideal S128x128 .f32) (nb : FVec Ideal S128 .f32) (cW : FVec Ideal S256x128 .f32)
    (cb : FVec Ideal S128 .f32) (g b : FVec Ideal S128 .f32) :
    refOut x adj sW sb nW nb cW cb g b = out x adj sW sb nW nb cW cb g b := by
  unfold refOut out normRelu
  rw [refVar_eq]

-- the fold is seventy results deep and the layer's function names the hidden matrix six times
set_option maxRecDepth 8192 in
set_option maxHeartbeats 1000000 in
/-- The fold at the result buffer is the reference's composed function of the arguments by computation: each
    operation's result decides whether the buffer read is the one it writes, the typed references' transports are the
    identity at these literal references, and a format change to the same format is the identity. -/
theorem out_eq (V : Valuation τ sig (Elt Ideal)) :
    after ops V (main_v37 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  simp only [after_cons, after_nil]
  rfl

set_option maxRecDepth 8192 in
set_option maxHeartbeats 2000000 in
/-- No operation writes an argument's buffer: each keeps its contents. -/
theorem args_eq (V : Valuation τ sig (Elt Ideal)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig)
    ∧ after ops V (main_arg8 : DevRef τ sig) = V (main_arg8 : DevRef τ sig)
    ∧ after ops V (main_arg9 : DevRef τ sig) = V (main_arg9 : DevRef τ sig) := by
  refine ⟨?_, ?_, ?_, ?_, ?_, ?_, ?_, ?_, ?_, ?_⟩ <;> (simp only [after_cons, after_nil]; rfl)

/-- Every weakly fair execution of the reference program ends with the result buffer at the layer's function of the
    ten argument arrays and the arguments unchanged: the straight line's fold, read at the result buffer (where the
    reference's variance is the mean of squares) and at each argument. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v37)
          = Cert.Spec.out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
      ⟨((h c main_v37).trans (out_eq _)).trans (refOut_eq _ _ _ _ _ _ _ _ _ _),
        (h c main_arg0).trans (args_eq _).1,
        (h c main_arg1).trans (args_eq _).2.1,
        (h c main_arg2).trans (args_eq _).2.2.1,
        (h c main_arg3).trans (args_eq _).2.2.2.1,
        (h c main_arg4).trans (args_eq _).2.2.2.2.1,
        (h c main_arg5).trans (args_eq _).2.2.2.2.2.1,
        (h c main_arg6).trans (args_eq _).2.2.2.2.2.2.1,
        (h c main_arg7).trans (args_eq _).2.2.2.2.2.2.2.1,
        (h c main_arg8).trans (args_eq _).2.2.2.2.2.2.2.2.1,
        (h c main_arg9).trans (args_eq _).2.2.2.2.2.2.2.2.2⟩)
    (run_seq scopedRefs_eq scopedSems_eq defs main (fun _ => ops) main_eq (fun _ => ops_sub) m ρ)

end Value

end Cert.RefRun

end
-- ==== Proof.lean ====
/-
  The certificate. The kernel streams the 16384 × 16384 adjacency matrix once, in blocks of 512 rows by 4096 columns:
  for each row block it accumulates the row sums (the degrees) and the products with the matching rows of x (the
  neighbour sums) over the four column blocks, and at the last one computes the layer's rows from them. The reference
  computes the same layer from the whole arrays. Over the extended reals the two agree: the accumulated sums are the
  whole sums regrouped, which needs only that addition is commutative and associative, and every later operation
  computes a row of its result from the same rows of its operands, with the same constants on both sides. The
  changes of float format in the kernel are the identity at the exact instance, and nothing in the kernel's text was
  rewritten for it, so the claim about the idealization is empty. Each program terminates without a fault and leaves
  its arguments unchanged: the kernel reads them through input windows only.
-/
import proofs.«153857_j5291399708711_1_alg».proof.Defs
import proofs.«153857_j5291399708711_1_alg».proof.Proof.Gen.Kernel
import proofs.«153857_j5291399708711_1_alg».proof.Proof.Gen.KernelIdeal
import proofs.«153857_j5291399708711_1_alg».proof.Proof.Gen.ReferenceIdeal
import proofs.«153857_j5291399708711_1_alg».proof.Proof.Gen.Pre_finite_inputs
import proofs.«153857_j5291399708711_1_alg».proof.Proof.KernelFrame
import proofs.«153857_j5291399708711_1_alg».proof.Proof.KernelIdealFrame
import proofs.«153857_j5291399708711_1_alg».proof.Proof.KernelIdealValue
import proofs.«153857_j5291399708711_1_alg».proof.Proof.RefRun

noncomputable section

namespace Cert.Proof

open Idealize.ShloMosaic Idealize.ShloMosaic.TcCoe Idealize.SL.Sem

/-- The word-level kernel runs to the end and leaves its arguments unchanged. -/
theorem frame_k : Cert.frame_Kernel := fun m ρ _ => Cert.Kernel.Fr.frame m ρ

/-- So does the kernel read at the exact instance. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run (Cert.ReferenceIdeal.defs (F := Ideal)) _ _).mono (fun _ h c => (h c).2) (Cert.RefRun.run m ρ)

/-- Both programs end with the result array at the layer's function of the arguments, which agree. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run (Cert.KernelIdeal.defs (F := Ideal)) _ _).mono
      (fun r h c => ⟨(h c).1.trans (Cert.KernelIdeal.Fr.final m c), (h c).2⟩) (Cert.KernelIdeal.Fr.run_named m ρ)
  · refine (θ_run (Cert.ReferenceIdeal.defs (F := Ideal)) _ _).mono (fun r h c => ⟨?_, (h c).2⟩) (Cert.RefRun.run m' ρ')
    rw [(h c).1, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1,
      (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
